-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S3x6x2048 : Shape := ⟨3, ![3, 6, 2048]⟩
abbrev S2048x3 : Shape := ⟨2, ![2048, 3]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S3x6x2048 : S_.BroadcastsInDim S3x6x2048 (![] : Fin 0 → Fin S3x6x2048.rank)
  reducesTo_S3x6x2048_S_d0_1_2 : S3x6x2048.ReducesTo [0, 1, 2] S_
  bcast_S_S2048x3 : S_.BroadcastsInDim S2048x3 (![] : Fin 0 → Fin S2048x3.rank)
  reducesTo_S2048x3_S_d0_1 : S2048x3.ReducesTo [0, 1] S_

variable [Facts]

def fn_part1 {F : FTy → Type} [FloatOps F] (main_arg4 : FVec F S2048x3 .f32) (main_v13 : IVec S_ 1) (main_v16 : IVec S3x6x2048 1) : IVec S_ 1 :=
  let main_c_5 : IVec S_ 1 := constantI S_ 1 1#1
  let main_v17 : IVec S_ 1 := (fun x v => Host.reduce IntOp.andi x v reducesTo_S3x6x2048_S_d0_1_2 h_S_) main_v16 main_c_5
  let main_v18 : IVec S_ 1 := andi main_v13 main_v17
  let main_v19 : FVec F S2048x3 .f32 := Host.absf main_arg4
  let main_cst_6 : FVec F S_ .f32 := constant S_ .f32 0x7F800000#32
  let main_v20 : FVec F S2048x3 .f32 := broadcastInDim S2048x3 ![] bcast_S_S2048x3 main_cst_6
  let main_v21 : IVec S2048x3 1 := cmpf .olt main_v19 main_v20
  let main_c_7 : IVec S_ 1 := constantI S_ 1 1#1
  let main_v22 : IVec S_ 1 := (fun x v => Host.reduce IntOp.andi x v reducesTo_S2048x3_S_d0_1 h_S_) main_v21 main_c_7
  let main_v23 : IVec S_ 1 := andi main_v18 main_v22
  main_v23

def fn {F : FTy → Type} [FloatOps F] (main_arg0 : FVec F S4x2048x2048 .f32) (main_arg1 : FVec F S2048x2048 .f32) (main_arg2 : FVec F S2048x2048 .f32) (main_arg3 : FVec F S3x6x2048 .f32) (main_arg4 : FVec F S2048x3 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S3x6x2048 .f32 := Host.absf main_arg3
  let main_cst_4 : FVec F S_ .f32 := constant S_ .f32 0x7F800000#32
  let main_v15 : FVec F S3x6x2048 .f32 := broadcastInDim S3x6x2048 ![] bcast_S_S3x6x2048 main_cst_4
  let main_v16 : IVec S3x6x2048 1 := cmpf .olt main_v14 main_v15
  fn_part1 (F := F) main_arg4 main_v13 main_v16
-- ==== Kernel.lean ====
abbrev S4x2048x2048 : Shape := ⟨3, ![4, 2048, 2048]⟩
abbrev S2048x2048 : Shape := ⟨2, ![2048, 2048]⟩
abbrev S3x6x2048 : Shape := ⟨3, ![3, 6, 2048]⟩
abbrev S2048x3 : Shape := ⟨2, ![2048, 3]⟩
abbrev S8192x2048 : Shape := ⟨2, ![8192, 2048]⟩
abbrev S18x2048 : Shape := ⟨2, ![18, 2048]⟩
abbrev S2048x18 : Shape := ⟨2, ![2048, 18]⟩
abbrev S3x2048 : Shape := ⟨2, ![3, 2048]⟩
abbrev S256x2048 : Shape := ⟨2, ![256, 2048]⟩
abbrev S256x18 : Shape := ⟨2, ![256, 18]⟩
abbrev S256x6 : Shape := ⟨2, ![256, 6]⟩
abbrev S256x1 : Shape := ⟨2, ![256, 1]⟩
abbrev S256x5 : Shape := ⟨2, ![256, 5]⟩
abbrev S1x2048 : Shape := ⟨2, ![1, 2048]⟩

abbrev nBuf : Space → Nat
  | .hbm => 16
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048x2048, .f32⟩
  | .hbm, ⟨3, _⟩ => ⟨S3x6x2048, .f32⟩
  | .hbm, ⟨4, _⟩ => ⟨S2048x3, .f32⟩
  | .hbm, ⟨5, _⟩ => ⟨S8192x2048, .f32⟩
  | .hbm, ⟨6, _⟩ => ⟨S2048x2048, .f32⟩
  | .hbm, ⟨7, _⟩ => ⟨S2048x2048, .bf16⟩
  | .hbm, ⟨8, _⟩ => ⟨S2048x2048, .f32⟩
  | .hbm, ⟨9, _⟩ => ⟨S2048x2048, .bf16⟩
  | .hbm, ⟨10, _⟩ => ⟨S18x2048, .f32⟩
  | .hbm, ⟨11, _⟩ => ⟨S2048x18, .f32⟩
  | .hbm, ⟨12, _⟩ => ⟨S2048x18, .bf16⟩
  | .hbm, ⟨13, _⟩ => ⟨S3x2048, .f32⟩
  | .hbm, ⟨14, _⟩ => ⟨S8192x2048, .f32⟩
  | .hbm, ⟨15, _⟩ => ⟨S4x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S2048x2048, .bf16⟩
  | .local _ .vmem, ⟨4, _⟩ => ⟨S2048x18, .bf16⟩
  | .local _ .vmem, ⟨5, _⟩ => ⟨S3x2048, .f32⟩
  | .local _ .vmem, ⟨6, _⟩ => ⟨S256x2048, .f32⟩
  | .local _ .vmem, ⟨7, _⟩ => ⟨S256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x18 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x2048_S8192x2048 : S4x2048x2048.ShapeCasts S8192x2048
  transposes_S2048x2048_S2048x2048_1_0 : S2048x2048.Transposes [1, 0] S2048x2048
  bitsLt_bf16_f32 : FTy.bits .bf16 < FTy.bits .f32
  shapeCasts_S3x6x2048_S18x2048 : S3x6x2048.ShapeCasts S18x2048
  transposes_S18x2048_S2048x18_1_0 : S18x2048.Transposes [1, 0] S2048x18
  transposes_S2048x3_S3x2048_1_0 : S2048x3.Transposes [1, 0] S3x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x18_S2048x18_0_0 : ∀ a, (![0, 0] : Fin 2 → Nat) a + S2048x18.size a ≤ S2048x18.size a
  h_S2048x18 : 0 < S2048x18.numel
  shapeCasts_S2048x18_S2048x18 : S2048x18.ShapeCasts S2048x18
  inb_S3x2048_S3x2048_0_0 : ∀ a, (![0, 0] : Fin 2 → Nat) a + S3x2048.size a ≤ S3x2048.size a
  h_S3x2048 : 0 < S3x2048.numel
  shapeCasts_S3x2048_S3x2048 : S3x2048.ShapeCasts S3x2048
  slices_S256x18_o0_0_S256x6 : S256x18.Slices ![0, 0] S256x6
  slices_S256x6_o0_0_S256x1 : S256x6.Slices ![0, 0] S256x1
  slices_S256x6_o0_1_S256x5 : S256x6.Slices ![0, 1] S256x5
  slices_S256x5_o0_4_S256x1 : S256x5.Slices ![0, 4] S256x1
  slices_S256x5_o0_3_S256x1 : S256x5.Slices ![0, 3] S256x1
  slices_S256x5_o0_2_S256x1 : S256x5.Slices ![0, 2] S256x1
  slices_S256x5_o0_1_S256x1 : S256x5.Slices ![0, 1] S256x1
  slices_S256x5_o0_0_S256x1 : S256x5.Slices ![0, 0] S256x1
  slices_S3x2048_o0_0_S1x2048 : S3x2048.Slices ![0, 0] S1x2048
  broadcasts_S256x1_S256x2048 : S256x1.Broadcasts S256x2048
  broadcasts_S1x2048_S256x2048 : S1x2048.Broadcasts S256x2048
  slices_S256x18_o0_6_S256x6 : S256x18.Slices ![0, 6] S256x6
  slices_S3x2048_o1_0_S1x2048 : S3x2048.Slices ![1, 0] S1x2048
  slices_S256x18_o0_12_S256x6 : S256x18.Slices ![0, 12] S256x6
  slices_S3x2048_o2_0_S1x2048 : S3x2048.Slices ![2, 0] S1x2048
  shapeCasts_S8192x2048_S4x2048x2048 : S8192x2048.ShapeCasts S4x2048x2048
  dot_S256x2048_S2048x2048_S256x2048_1_0_0_1_n_n_wf : DotDims.WF S256x2048 S2048x2048 S256x2048 [1] [0] [0] [1] [] []
  dot_S256x2048_S2048x18_S256x18_1_0_0_1_n_n_wf : DotDims.WF S256x2048 S2048x18 S256x18 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x18.size a ≤ S2048x18.size a
  hwx0_3 : ∀ i : grid0.Coords, EltTy.bits .bf16 = 32 ∨ (Rect.block (s := S2048x18) S2048x18.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x2048.size a ≤ S3x2048.size a
  hwx0_4 : ∀ i : grid0.Coords, EltTy.bits .f32 = 32 ∨ (Rect.block (s := S3x2048) S3x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S8192x2048.size a
  hwx0_5 : ∀ i : grid0.Coords, EltTy.bits .f32 = 32 ∨ (Rect.block (s := S8192x2048) S256x2048.size (cc0_transform_5 i) (hinb0_5 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x18_S256x18_1_0_0_1_n_n : DotDims S256x2048 S2048x18 S256x18 where
  lhsContracting := [1]
  rhsContracting := [0]
  lhsNonContracting := [0]
  rhsNonContracting := [1]
  lhsBatch := []
  rhsBatch := []
  wf := dot_S256x2048_S2048x18_S256x18_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2048x18.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S3x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S3x6x2048 : Shape := ⟨3, ![3, 6, 2048]⟩
abbrev S2048x3 : Shape := ⟨2, ![2048, 3]⟩
abbrev S_ : Shape := ⟨0, ![]⟩
abbrev S4x2048x3x6 : Shape := ⟨4, ![4, 2048, 3, 6]⟩
abbrev S4x2048x3x1 : Shape := ⟨4, ![4, 2048, 3, 1]⟩
abbrev S4x2048x3 : Shape := ⟨3, ![4, 2048, 3]⟩
abbrev S4x2048x3x5 : Shape := ⟨4, ![4, 2048, 3, 5]⟩

abbrev nBuf : Space → Nat
  | .hbm => 125
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048x2048, .f32⟩
  | .hbm, ⟨3, _⟩ => ⟨S3x6x2048, .f32⟩
  | .hbm, ⟨4, _⟩ => ⟨S2048x3, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S4x2048x3x6, .f32⟩
  | .hbm, ⟨17, _⟩ => ⟨S4x2048x3x1, .f32⟩
  | .hbm, ⟨18, _⟩ => ⟨S4x2048x3, .f32⟩
  | .hbm, ⟨19, _⟩ => ⟨S4x2048x3x5, .f32⟩
  | .hbm, ⟨20, _⟩ => ⟨S_, .f32⟩
  | .hbm, ⟨21, _⟩ => ⟨S4x2048x3, .f32⟩
  | .hbm, ⟨22, _⟩ => ⟨S_, .f32⟩
  | .hbm, ⟨23, _⟩ => ⟨S4x2048x3, .f32⟩
  | .hbm, ⟨24, _⟩ => ⟨S4x2048x3, .f32⟩
  | .hbm, ⟨25, _⟩ => ⟨S4x2048x3, .f32⟩
  | .hbm, ⟨26, _⟩ => ⟨S_, .f32⟩
  | .hbm, ⟨27, _⟩ => ⟨S4x2048x3, .f32⟩
  | .hbm, ⟨28, _⟩ => ⟨S4x2048x3, .i1⟩
  | .hbm, ⟨29, _⟩ => ⟨S_, .f32⟩
  | .hbm, ⟨30, _⟩ => ⟨S4x2048x3, .f32⟩
  | .hbm, ⟨31, _⟩ => ⟨S4x2048x3, .i1⟩
  | .hbm, ⟨32, _⟩ => ⟨S_, .f32⟩
  | .hbm, ⟨33, _⟩ => ⟨S_, .f32⟩
  | .hbm, ⟨34, _⟩ => ⟨S4x2048x3, .f32⟩
  | .hbm, ⟨35, _⟩ => ⟨S4x2048x3, .f32⟩
  | .hbm, ⟨36, _⟩ => ⟨S4x2048x3, .f32⟩
  | .hbm, ⟨37, _⟩ => ⟨S4x2048x3, .f32⟩
  | .hbm, ⟨38, _⟩ => ⟨S4x2048x3, .f32⟩
  | .hbm, ⟨39, _⟩ => ⟨S4x2048x3x1, .f32⟩
  | .hbm, ⟨40, _⟩ => ⟨S4x2048x3, .f32⟩
  | .hbm, ⟨41, _⟩ => ⟨S4x2048x3, .f32⟩
  | .hbm, ⟨42, _⟩ => ⟨S_, .f32⟩
  | .hbm, ⟨43, _⟩ => ⟨S4x2048x3, .f32⟩
  | .hbm, ⟨44, _⟩ => ⟨S4x2048x3, .f32⟩
  | .hbm, ⟨45, _⟩ => ⟨S4x2048x3, .f32⟩
  | .hbm, ⟨46, _⟩ => ⟨S_, .f32⟩
  | .hbm, ⟨47, _⟩ => ⟨S4x2048x3, .f32⟩
  | .hbm, ⟨48, _⟩ => ⟨S4x2048x3, .i1⟩
  | .hbm, ⟨49, _⟩ => ⟨S_, .f32⟩
  | .hbm, ⟨50, _⟩ => ⟨S4x2048x3, .f32⟩
  | .hbm, ⟨51, _⟩ => ⟨S4x2048x3, .i1⟩
  | .hbm, ⟨52, _⟩ => ⟨S_, .f32⟩
  | .hbm, ⟨53, _⟩ => ⟨S_, .f32⟩
  | .hbm, ⟨54, _⟩ => ⟨S4x2048x3, .f32⟩
  | .hbm, ⟨55, _⟩ => ⟨S4x2048x3, .f32⟩
  | .hbm, ⟨56, _⟩ => ⟨S4x2048x3, .f32⟩
  | .hbm, ⟨57, _⟩ => ⟨S4x2048x3, .f32⟩
  | .hbm, ⟨58, _⟩ => ⟨S4x2048x3, .f32⟩
  | .hbm, ⟨59, _⟩ => ⟨S4x2048x3x1, .f32⟩
  | .hbm, ⟨60, _⟩ => ⟨S4x2048x3, .f32⟩
  | .hbm, ⟨61, _⟩ => ⟨S4x2048x3, .f32⟩
  | .hbm, ⟨62, _⟩ => ⟨S_, .f32⟩
  | .hbm, ⟨63, _⟩ => ⟨S4x2048x3, .f32⟩
  | .hbm, ⟨64, _⟩ => ⟨S4x2048x3, .f32⟩
  | .hbm, ⟨65, _⟩ => ⟨S4x2048x3, .f32⟩
  | .hbm, ⟨66, _⟩ => ⟨S_, .f32⟩
  | .hbm, ⟨67, _⟩ => ⟨S4x2048x3, .f32⟩
  | .hbm, ⟨68, _⟩ => ⟨S4x2048x3, .i1⟩
  | .hbm, ⟨69, _⟩ => ⟨S_, .f32⟩
  | .hbm, ⟨70, _⟩ => ⟨S4x2048x3, .f32⟩
  | .hbm, ⟨71, _⟩ => ⟨S4x2048x3, .i1⟩
  | .hbm, ⟨72, _⟩ => ⟨S_, .f32⟩
  | .hbm, ⟨73, _⟩ => ⟨S_, .f32⟩
  | .hbm, ⟨74, _⟩ => ⟨S4x2048x3, .f32⟩
  | .hbm, ⟨75, _⟩ => ⟨S4x2048x3, .f32⟩
  | .hbm, ⟨76, _⟩ => ⟨S4x2048x3, .f32⟩
  | .hbm, ⟨77, _⟩ => ⟨S4x2048x3, .f32⟩
  | .hbm, ⟨78, _⟩ => ⟨S4x2048x3, .f32⟩
  | .hbm, ⟨79, _⟩ => ⟨S4x2048x3x1, .f32⟩
  | .hbm, ⟨80, _⟩ => ⟨S4x2048x3, .f32⟩
  | .hbm, ⟨81, _⟩ => ⟨S4x2048x3, .f32⟩
  | .hbm, ⟨82, _⟩ => ⟨S_, .f32⟩
  | .hbm, ⟨83, _⟩ => ⟨S4x2048x3, .f32⟩
  | .hbm, ⟨84, _⟩ => ⟨S4x2048x3, .f32⟩
  | .hbm, ⟨85, _⟩ => ⟨S4x2048x3, .f32⟩
  | .hbm, ⟨86, _⟩ => ⟨S_, .f32⟩
  | .hbm, ⟨87, _⟩ => ⟨S4x2048x3, .f32⟩
  | .hbm, ⟨88, _⟩ => ⟨S4x2048x3, .i1⟩
  | .hbm, ⟨89, _⟩ => ⟨S_, .f32⟩
  | .hbm, ⟨90, _⟩ => ⟨S4x2048x3, .f32⟩
  | .hbm, ⟨91, _⟩ => ⟨S4x2048x3, .i1⟩
  | .hbm, ⟨92, _⟩ => ⟨S_, .f32⟩
  | .hbm, ⟨93, _⟩ => ⟨S_, .f32⟩
  | .hbm, ⟨94, _⟩ => ⟨S4x2048x3, .f32⟩
  | .hbm, ⟨95, _⟩ => ⟨S4x2048x3, .f32⟩
  | .hbm, ⟨96, _⟩ => ⟨S4x2048x3, .f32⟩
  | .hbm, ⟨97, _⟩ => ⟨S4x2048x3, .f32⟩
  | .hbm, ⟨98, _⟩ => ⟨S4x2048x3, .f32⟩
  | .hbm, ⟨99, _⟩ => ⟨S4x2048x3x1, .f32⟩
  | .hbm, ⟨100, _⟩ => ⟨S4x2048x3, .f32⟩
  | .hbm, ⟨101, _⟩ => ⟨S4x2048x3, .f32⟩
  | .hbm, ⟨102, _⟩ => ⟨S_, .f32⟩
  | .hbm, ⟨103, _⟩ => ⟨S4x2048x3, .f32⟩
  | .hbm, ⟨104, _⟩ => ⟨S4x2048x3, .f32⟩
  | .hbm, ⟨105, _⟩ => ⟨S4x2048x3, .f32⟩
  | .hbm, ⟨106, _⟩ => ⟨S_, .f32⟩
  | .hbm, ⟨107, _⟩ => ⟨S4x2048x3, .f32⟩
  | .hbm, ⟨108, _⟩ => ⟨S4x2048x3, .i1⟩
  | .hbm, ⟨109, _⟩ => ⟨S_, .f32⟩
  | .hbm, ⟨110, _⟩ => ⟨S4x2048x3, .f32⟩
  | .hbm, ⟨111, _⟩ => ⟨S4x2048x3, .i1⟩
  | .hbm, ⟨112, _⟩ => ⟨S_, .f32⟩
  | .hbm, ⟨113, _⟩ => ⟨S_, .f32⟩
  | .hbm, ⟨114, _⟩ => ⟨S4x2048x3, .f32⟩
  | .hbm, ⟨115, _⟩ => ⟨S4x2048x3, .f32⟩
  | .hbm, ⟨116, _⟩ => ⟨S4x2048x3, .f32⟩
  | .hbm, ⟨117, _⟩ => ⟨S4x2048x3, .f32⟩
  | .hbm, ⟨118, _⟩ => ⟨S4x2048x3, .f32⟩
  | .hbm, ⟨119, _⟩ => ⟨S4x2048x3x1, .f32⟩
  | .hbm, ⟨120, _⟩ => ⟨S4x2048x3, .f32⟩
  | .hbm, ⟨121, _⟩ => ⟨S4x2048x3, .f32⟩
  | .hbm, ⟨122, _⟩ => ⟨S4x2048x3, .f32⟩
  | .hbm, ⟨123, _⟩ => ⟨S4x2048x2048, .f32⟩
  | .hbm, ⟨124, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_cst_6 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_call1_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_cst_11 : Ref sig .tc := ⟨.hbm, 53, rfl⟩
abbrev main_call2_v0 : Ref sig .tc := ⟨.hbm, 54, rfl⟩
abbrev main_call2_v1 : Ref sig .tc := ⟨.hbm, 55, rfl⟩
abbrev main_v33 : Ref sig .tc := ⟨.hbm, 56, rfl⟩
abbrev main_call3_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_12 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_13 : Ref sig .tc := ⟨.hbm, 66, rfl⟩
abbrev main_v41 : Ref sig .tc := ⟨.hbm, 67, rfl⟩
abbrev main_v42 : Ref sig .tc := ⟨.hbm, 68, rfl⟩
abbrev main_cst_14 : Ref sig .tc := ⟨.hbm, 69, rfl⟩
abbrev main_v43 : Ref sig .tc := ⟨.hbm, 70, rfl⟩
abbrev main_v44 : Ref sig .tc := ⟨.hbm, 71, rfl⟩
abbrev main_cst_15 : Ref sig .tc := ⟨.hbm, 72, rfl⟩
abbrev main_cst_16 : Ref sig .tc := ⟨.hbm, 73, rfl⟩
abbrev main_call4_v0 : Ref sig .tc := ⟨.hbm, 74, rfl⟩
abbrev main_call4_v1 : Ref sig .tc := ⟨.hbm, 75, rfl⟩
abbrev main_v45 : Ref sig .tc := ⟨.hbm, 76, rfl⟩
abbrev main_call5_v0 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_17 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_18 : Ref sig .tc := ⟨.hbm, 86, rfl⟩
abbrev main_v53 : Ref sig .tc := ⟨.hbm, 87, rfl⟩
abbrev main_v54 : Ref sig .tc := ⟨.hbm, 88, rfl⟩
abbrev main_cst_19 : Ref sig .tc := ⟨.hbm, 89, rfl⟩
abbrev main_v55 : Ref sig .tc := ⟨.hbm, 90, rfl⟩
abbrev main_v56 : Ref sig .tc := ⟨.hbm, 91, rfl⟩
abbrev main_cst_20 : Ref sig .tc := ⟨.hbm, 92, rfl⟩
abbrev main_cst_21 : Ref sig .tc := ⟨.hbm, 93, rfl⟩
abbrev main_call6_v0 : Ref sig .tc := ⟨.hbm, 94, rfl⟩
abbrev main_call6_v1 : Ref sig .tc := ⟨.hbm, 95, rfl⟩
abbrev main_v57 : Ref sig .tc := ⟨.hbm, 96, rfl⟩
abbrev main_call7_v0 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_22 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_23 : Ref sig .tc := ⟨.hbm, 106, rfl⟩
abbrev main_v65 : Ref sig .tc := ⟨.hbm, 107, rfl⟩
abbrev main_v66 : Ref sig .tc := ⟨.hbm, 108, rfl⟩
abbrev main_cst_24 : Ref sig .tc := ⟨.hbm, 109, rfl⟩
abbrev main_v67 : Ref sig .tc := ⟨.hbm, 110, rfl⟩
abbrev main_v68 : Ref sig .tc := ⟨.hbm, 111, rfl⟩
abbrev main_cst_25 : Ref sig .tc := ⟨.hbm, 112, rfl⟩
abbrev main_cst_26 : Ref sig .tc := ⟨.hbm, 113, rfl⟩
abbrev main_call8_v0 : Ref sig .tc := ⟨.hbm, 114, rfl⟩
abbrev main_call8_v1 : Ref sig .tc := ⟨.hbm, 115, rfl⟩
abbrev main_v69 : Ref sig .tc := ⟨.hbm, 116, rfl⟩
abbrev main_call9_v0 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  slices_S4x2048x3x6_S4x2048x3x1_0_0_0_0 : S4x2048x3x6.Slices ![0, 0, 0, 0] S4x2048x3x1
  shapeCasts_S4x2048x3x1_S4x2048x3 : S4x2048x3x1.ShapeCasts S4x2048x3
  slices_S4x2048x3x6_S4x2048x3x5_0_0_0_1 : S4x2048x3x6.Slices ![0, 0, 0, 1] S4x2048x3x5
  bcast_S_S4x2048x3 : S_.BroadcastsInDim S4x2048x3 (![] : Fin 0 → Fin S4x2048x3.rank)
  slices_S4x2048x3x5_S4x2048x3x1_0_0_0_4 : S4x2048x3x5.Slices ![0, 0, 0, 4] S4x2048x3x1
  slices_S4x2048x3x5_S4x2048x3x1_0_0_0_3 : S4x2048x3x5.Slices ![0, 0, 0, 3] S4x2048x3x1
  slices_S4x2048x3x5_S4x2048x3x1_0_0_0_2 : S4x2048x3x5.Slices ![0, 0, 0, 2] S4x2048x3x1
  slices_S4x2048x3x5_S4x2048x3x1_0_0_0_1 : S4x2048x3x5.Slices ![0, 0, 0, 1] S4x2048x3x1
  slices_S4x2048x3x5_S4x2048x3x1_0_0_0_0 : S4x2048x3x5.Slices ![0, 0, 0, 0] S4x2048x3x1
  dot_S4x2048x2048_S2048x2048_S4x2048x2048_2_1_01_0_n_n_wf : DotDims.WF S4x2048x2048 S2048x2048 S4x2048x2048 [2] [1] [0, 1] [0] [] []
  dot_S4x2048x2048_S3x6x2048_S4x2048x3x6_2_2_01_01_n_n_wf : DotDims.WF S4x2048x2048 S3x6x2048 S4x2048x3x6 [2] [2] [0, 1] [0, 1] [] []
  dot_S4x2048x3_S2048x3_S4x2048x2048_2_1_01_0_n_n_wf : DotDims.WF S4x2048x3 S2048x3 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf
def dot_S4x2048x2048_S3x6x2048_S4x2048x3x6_2_2_01_01_n_n : DotDims S4x2048x2048 S3x6x2048 S4x2048x3x6 where
  lhsContracting := [2]
  rhsContracting := [2]
  lhsNonContracting := [0, 1]
  rhsNonContracting := [0, 1]
  lhsBatch := []
  rhsBatch := []
  wf := dot_S4x2048x2048_S3x6x2048_S4x2048x3x6_2_2_01_01_n_n_wf
def dot_S4x2048x3_S2048x3_S4x2048x2048_2_1_01_0_n_n : DotDims S4x2048x3 S2048x3 S4x2048x2048 where
  lhsContracting := [2]
  rhsContracting := [1]
  lhsNonContracting := [0, 1]
  rhsNonContracting := [0]
  lhsBatch := []
  rhsBatch := []
  wf := dot_S4x2048x3_S2048x3_S4x2048x2048_2_1_01_0_n_n_wf

class Facts : Prop extends Facts₀ where

variable [Facts]
-- ==== Proof.Spec.lean ====
/-
  The common value of the two programs, written once over plain index functions into the extended reals.

  For one row `x : Fin 2048 → EReal` of the input, with the weights as index functions
  (`uw o k`, `gw d k`: output feature, input feature; `lw l k d`: ladder, coefficient, feature; `vw o l`):
    gate d      = logistic (∑ k, x k · gw d k) · x d
    coeff l k   = ∑ d, gate d · lw l k d
    ladder a    = a 0 + a 1 / g(1 + a 2 / g(1 + a 3 / g(1 + a 4 / g(1 + a 5 / g(1 + 0)))))
                  where g is the pole guard: a denominator of magnitude below ε is replaced by ±ε
    out o       = ∑ k, x k · uw o k  +  ∑ l, ladder (coeff l) · vw o l
  Every float operation is the exact one on the extended reals; the literals ε, −ε, 1 and 0 are the binary
  values both programs print, kept as patterns (only 1 and 0 are ever evaluated).
-/
import Idealize.ShloMosaic.PureOps.Ideal
import Idealize.ShloMosaic.PureOps.Ideal.Laws
import Idealize.ShloMosaic.Lib.IdealHost
import Idealize.ShloMosaic.Lib.ValueIdx

noncomputable section

namespace Cert.Spec

open Idealize.ShloMosaic

/-- The guard's threshold ε = f32(0.01), as the printed pattern. -/
abbrev epsP : Ideal .f32 := FloatOps.ofBits (F := Ideal) .f32 0x3C23D70A#32
/-- −ε, as the printed pattern. -/
abbrev epsN : Ideal .f32 := FloatOps.ofBits (F := Ideal) .f32 0xBC23D70A#32
/-- 1.0, as the printed pattern. -/
abbrev oneP : Ideal .f32 := FloatOps.ofBits (F := Ideal) .f32 0x3F800000#32
/-- 0.0, as the printed pattern. -/
abbrev zeroP : Ideal .f32 := FloatOps.ofBits (F := Ideal) .f32 0x00000000#32

/-- The pole guard: a denominator `d` with `|d| < ε` becomes `ε` when `d ≥ 0` and `−ε` otherwise. -/
def guard (d : Ideal .f32) : Ideal .f32 :=
  Scalar.select (FloatOps.cmpf .olt (FloatOps.absf d) epsP)
    (Scalar.select (FloatOps.cmpf .oge d zeroP) epsP epsN) d

/-- One level of the continued fraction: `a / g(1 + f)`. -/
def level (a f : Ideal .f32) : Ideal .f32 := FloatOps.divf a (guard (FloatOps.addf oneP f))

/-- A ladder's value from its six coefficients: the leading one plus the five-level continued fraction. -/
def ladder (a : Fin 6 → Ideal .f32) : Ideal .f32 :=
  FloatOps.addf (a 0) (level (a 1) (level (a 2) (level (a 3) (level (a 4) (level (a 5) zeroP)))))

/-- The gated input at feature `d`: `logistic (x · gw d) · x d`. -/
def gate (x : Fin 2048 → EReal) (gw : Fin 2048 → Fin 2048 → EReal) (d : Fin 2048) : EReal :=
  Ideal.logistic (∑ k : Fin 2048, x k * gw d k) * x d

/-- Coefficient `k` of ladder `l`: the gated input against the ladder's weight row. -/
def coeff (x : Fin 2048 → EReal) (gw : Fin 2048 → Fin 2048 → EReal) (lw : Fin 3 → Fin 6 → Fin 2048 → EReal)
    (l : Fin 3) (k : Fin 6) : EReal :=
  ∑ d : Fin 2048, gate x gw d * lw l k d

/-- The result at output feature `o` of one input row. -/
def out (x : Fin 2048 → EReal) (uw gw : Fin 2048 → Fin 2048 → EReal) (lw : Fin 3 → Fin 6 → Fin 2048 → EReal)
    (vw : Fin 2048 → Fin 3 → EReal) (o : Fin 2048) : EReal :=
  (∑ k : Fin 2048, x k * uw o k) + ∑ l : Fin 3, ladder (coeff x gw lw l) * vw o l

/-- The whole result array f32[4, 2048, 2048] as one function of the five argument arrays, index by index:
    entry `(b, s, o)` is `out` of row `(b, s)` of `x` at output feature `o`, the weights read in the layout the
    arguments have (`U_w[o, k]`, `gate_w[d, k]`, `ladder_w[l, k, d]`, `V_w[o, l]`). -/
def whole (a0 : (⟨3, ![4, 2048, 2048]⟩ : Shape).Idx → EReal) (a1 a2 : (⟨2, ![2048, 2048]⟩ : Shape).Idx → EReal)
    (a3 : (⟨3, ![3, 6, 2048]⟩ : Shape).Idx → EReal) (a4 : (⟨2, ![2048, 3]⟩ : Shape).Idx → EReal) :
    (⟨3, ![4, 2048, 2048]⟩ : Shape).Idx → EReal := fun i =>
  out (fun k => a0 (ValueIdx.ix3 (i 0) (i 1) k)) (fun o k => a1 (ValueIdx.ix2 o k)) (fun d k => a2 (ValueIdx.ix2 d k))
    (fun l k d => a3 (ValueIdx.ix3 l k d)) (fun o l => a4 (ValueIdx.ix2 o l)) (i 2)

/-- The three ladder terms added one after the other onto zero, as the kernel accumulates them. -/
theorem sum_three (f : Fin 3 → EReal) : ((zeroP + f 0) + f 1) + f 2 = ∑ l : Fin 3, f l := by
  rw [Fin.sum_univ_three]
  show ((Ideal.ofBits .f32 0x00000000#32 + f 0) + f 1) + f 2 = _
  rw [Ideal.ofBits_zero_f32, zero_add]

/-- The host's expansion `1 / (1 + e^(−t))`, its ones the printed patterns, is the logistic function. -/
theorem logistic_expanded (t : EReal) :
    Ideal.div oneP (oneP + Ideal.exp (-t)) = Ideal.logistic t := by
  show Ideal.div (Ideal.ofBits .f32 0x3F800000#32) (Ideal.ofBits .f32 0x3F800000#32 + Ideal.exp (-t)) = _
  rw [Ideal.ofBits_one_f32]
  rfl

end Cert.Spec

end
-- ==== Proof.KLayout.lean ====
/-
  Layout operations of the kernel body read at an index, over literal two-axis shapes: a unit-stride slice of
  columns (a run of coefficient columns, or one column), a slice of one row of a three-row matrix, a column
  vector broadcast along the lanes and a row vector broadcast down the rows; and the lane-wise operations of the body
  spelt at an index, so that a payload unfolds to scalar operations on its operands' entries.
-/
import Idealize.ShloMosaic.Lib.ValueIdx
import Idealize.ShloMosaic.Lib.Pipeline.Value

noncomputable section

namespace Cert.Layout2

open Idealize.ShloMosaic Idealize.ShloMosaic.ValueIdx

variable {α : Type}

/-- Columns `o … o + m − 1` of an `R × n` matrix: entry `(p, j)` of the slice is entry `(p, o + j)`. -/
theorem slice_cols {R n m : Nat} (o : Nat) (x : (⟨2, ![R, n]⟩ : Shape).Idx → α)
    (h : (⟨2, ![R, n]⟩ : Shape).Slices ![0, o] ⟨2, ![R, m]⟩) (p : Fin R) (j : Fin m) (hj : o + j.val < n) :
    extractStridedSlice ⟨2, ![R, m]⟩ ![0, o] x h (ix2 p j) = x (ix2 p ⟨o + j.val, hj⟩) :=
  extractStridedSlice_apply _ x h _ _ fun a => by
    match a with
    | ⟨0, _⟩ => exact (Nat.zero_add _).symm
    | ⟨1, _⟩ => rfl

/-- Row `l` of an `R × n` matrix as a one-row matrix: entry `(0, q)` of the slice is entry `(l, q)`. -/
theorem slice_row {R n : Nat} (l : Nat) (x : (⟨2, ![R, n]⟩ : Shape).Idx → α)
    (h : (⟨2, ![R, n]⟩ : Shape).Slices ![l, 0] ⟨2, ![1, n]⟩) (q : Fin n) (hl : l < R) :
    extractStridedSlice ⟨2, ![1, n]⟩ ![l, 0] x h (ix2 (0 : Fin 1) q) = x (ix2 ⟨l, hl⟩ q) :=
  extractStridedSlice_apply _ x h _ _ fun a => by
    match a with
    | ⟨0, _⟩ => rfl
    | ⟨1, _⟩ => exact (Nat.zero_add _).symm

/-- A column vector broadcast along the lanes: entry `(p, q)` is the vector's entry `p`. -/
theorem bcast_col {R n : Nat} (hR : R ≠ 1) (x : (⟨2, ![R, 1]⟩ : Shape).Idx → α)
    (h : (⟨2, ![R, 1]⟩ : Shape).Broadcasts ⟨2, ![R, n]⟩) (p : Fin R) (q : Fin n) :
    broadcastTo ⟨2, ![R, n]⟩ x h (ix2 p q) = x (ix2 p (0 : Fin 1)) :=
  broadcastTo_apply x h _ _ fun a => by
    match a with
    | ⟨0, _⟩ => exact (if_neg hR).symm
    | ⟨1, _⟩ => exact (if_pos rfl).symm

/-- A row vector broadcast down the rows: entry `(p, q)` is the vector's entry `q`. -/
theorem bcast_row {R n : Nat} (hn : n ≠ 1) (x : (⟨2, ![1, n]⟩ : Shape).Idx → α)
    (h : (⟨2, ![1, n]⟩ : Shape).Broadcasts ⟨2, ![R, n]⟩) (p : Fin R) (q : Fin n) :
    broadcastTo ⟨2, ![R, n]⟩ x h (ix2 p q) = x (ix2 (0 : Fin 1) q) :=
  broadcastTo_apply x h _ _ fun a => by
    match a with
    | ⟨0, _⟩ => exact (if_pos rfl).symm
    | ⟨1, _⟩ => exact (if_neg hn).symm

end Cert.Layout2

end
-- ==== Proof.KMatmul.lean ====
/-
  The kernel body's two kinds of block product, read at an index at the exact values: a 256 × 2048 tile against a
  2048 × 2048 weight (the linear output and the gate logits) and against the 2048 × 18 ladder weight (the ladder
  coefficients). Each accumulates into zeros, so an entry is the plain sum over the contracted feature axis.
-/
import proofs.«107718_j68478958568093_1_alg».proof.KernelIdeal
import proofs.«107718_j68478958568093_1_alg».proof.Proof.Gen.KernelIdeal
import Idealize.ShloMosaic.Lib.ValueIdx
import Idealize.ShloMosaic.PureOps.Ideal.Laws

noncomputable section

namespace Cert.KernelIdeal.BlockProducts

open Cert.KernelIdeal Cert.KernelIdeal.Gen Idealize.ShloMosaic Idealize.ShloMosaic.ValueIdx

theorem lhsW_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhsW_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem rhsW_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem rhsW_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- A block product into the zero accumulator, read at row `p` and column `j`: the sum over the 2048 contracted
    features of the left operand's row `p` against the right operand's column `j`. -/
theorem matmulW_apply (L : FVec Ideal S256x2048 .bf16) (R : FVec Ideal S2048x2048 .bf16) (p : Fin 256) (j : Fin 2048) :
    matmul dot_S256x2048_S2048x2048_S256x2048_1_0_0_1_n_n none L R (constant S256x2048 .f32 0x00000000#32) (ix2 p j)
      = ∑ k : Fin 2048, L (ix2 p k) * R (ix2 k j) := by
  simp only [matmul]
  rw [Ideal.matmul_constant_zero_apply, ← Equiv.sum_comp (ValueIdx.contrEquiv1 dot_S256x2048_S2048x2048_S256x2048_1_0_0_1_n_n 2048 rfl rfl).symm]
  refine Finset.sum_congr rfl fun k _ => ?_
  have hk := ValueIdx.contrEquiv1_symm_val dot_S256x2048_S2048x2048_S256x2048_1_0_0_1_n_n 2048 rfl rfl k
  have el : dot_S256x2048_S2048x2048_S256x2048_1_0_0_1_n_n.lhsIdx (ix2 p j) ((ValueIdx.contrEquiv1 dot_S256x2048_S2048x2048_S256x2048_1_0_0_1_n_n 2048 rfl rfl).symm k) = ix2 p k := funext fun a => Fin.ext (by
    match a with
    | ⟨0, _⟩ => exact lhsW_0 _ _
    | ⟨1, _⟩ => exact (lhsW_1 _ _).trans hk)
  have er : dot_S256x2048_S2048x2048_S256x2048_1_0_0_1_n_n.rhsIdx (ix2 p j) ((ValueIdx.contrEquiv1 dot_S256x2048_S2048x2048_S256x2048_1_0_0_1_n_n 2048 rfl rfl).symm k) = ix2 k j := funext fun a => Fin.ext (by
    match a with
    | ⟨0, _⟩ => exact (rhsW_0 _ _).trans hk
    | ⟨1, _⟩ => exact rhsW_1 _ _)
  rw [el, er]

theorem lhsA_0 (i : S256x18.Idx) (q : dot_S256x2048_S2048x18_S256x18_1_0_0_1_n_n.contr.Idx) :
    (dot_S256x2048_S2048x18_S256x18_1_0_0_1_n_n.lhsIdx i q 0).val = (i 0).val := by
  unfold DotDims.lhsIdx
  rw [dif_neg (show ¬(0 : Fin S256x2048.rank) ∈ dot_S256x2048_S2048x18_S256x18_1_0_0_1_n_n.lhsBatch by decide), dif_pos (show (0 : Fin S256x2048.rank) ∈ dot_S256x2048_S2048x18_S256x18_1_0_0_1_n_n.lhsNonContracting by decide)]
  rfl
theorem lhsA_1 (i : S256x18.Idx) (q : dot_S256x2048_S2048x18_S256x18_1_0_0_1_n_n.contr.Idx) :
    (dot_S256x2048_S2048x18_S256x18_1_0_0_1_n_n.lhsIdx i q 1).val = (q ⟨0, by decide⟩).val :=
  dot_S256x2048_S2048x18_S256x18_1_0_0_1_n_n.lhsIdx_val_of_single rfl i q
theorem rhsA_0 (i : S256x18.Idx) (q : dot_S256x2048_S2048x18_S256x18_1_0_0_1_n_n.contr.Idx) :
    (dot_S256x2048_S2048x18_S256x18_1_0_0_1_n_n.rhsIdx i q 0).val = (q ⟨0, by decide⟩).val :=
  dot_S256x2048_S2048x18_S256x18_1_0_0_1_n_n.rhsIdx_val_of_single rfl i q
theorem rhsA_1 (i : S256x18.Idx) (q : dot_S256x2048_S2048x18_S256x18_1_0_0_1_n_n.contr.Idx) :
    (dot_S256x2048_S2048x18_S256x18_1_0_0_1_n_n.rhsIdx i q 1).val = (i 1).val := by
  unfold DotDims.rhsIdx
  rw [dif_neg (show ¬(1 : Fin S2048x18.rank) ∈ dot_S256x2048_S2048x18_S256x18_1_0_0_1_n_n.rhsBatch by decide), dif_pos (show (1 : Fin S2048x18.rank) ∈ dot_S256x2048_S2048x18_S256x18_1_0_0_1_n_n.rhsNonContracting by decide)]
  rfl

/-- A block product into the zero accumulator, read at row `p` and column `j`: the sum over the 2048 contracted
    features of the left operand's row `p` against the right operand's column `j`. -/
theorem matmulA_apply (L : FVec Ideal S256x2048 .bf16) (R : FVec Ideal S2048x18 .bf16) (p : Fin 256) (j : Fin 18) :
    matmul dot_S256x2048_S2048x18_S256x18_1_0_0_1_n_n none L R (constant S256x18 .f32 0x00000000#32) (ix2 p j)
      = ∑ k : Fin 2048, L (ix2 p k) * R (ix2 k j) := by
  simp only [matmul]
  rw [Ideal.matmul_constant_zero_apply, ← Equiv.sum_comp (ValueIdx.contrEquiv1 dot_S256x2048_S2048x18_S256x18_1_0_0_1_n_n 2048 rfl rfl).symm]
  refine Finset.sum_congr rfl fun k _ => ?_
  have hk := ValueIdx.contrEquiv1_symm_val dot_S256x2048_S2048x18_S256x18_1_0_0_1_n_n 2048 rfl rfl k
  have el : dot_S256x2048_S2048x18_S256x18_1_0_0_1_n_n.lhsIdx (ix2 p j) ((ValueIdx.contrEquiv1 dot_S256x2048_S2048x18_S256x18_1_0_0_1_n_n 2048 rfl rfl).symm k) = ix2 p k := funext fun a => Fin.ext (by
    match a with
    | ⟨0, _⟩ => exact lhsA_0 _ _
    | ⟨1, _⟩ => exact (lhsA_1 _ _).trans hk)
  have er : dot_S256x2048_S2048x18_S256x18_1_0_0_1_n_n.rhsIdx (ix2 p j) ((ValueIdx.contrEquiv1 dot_S256x2048_S2048x18_S256x18_1_0_0_1_n_n 2048 rfl rfl).symm k) = ix2 k j := funext fun a => Fin.ext (by
    match a with
    | ⟨0, _⟩ => exact (rhsA_0 _ _).trans hk
    | ⟨1, _⟩ => exact rhsA_1 _ _)
  rw [el, er]

end Cert.KernelIdeal.BlockProducts

end
-- ==== Proof.KBlock.lean ====
/-
  The kernel body at one grid point, read at an index of its output tile, at the exact values.

  The body holds a 256-row tile `x0` of the input and the four weights whole (`x1`, `x2`: the two square
  weights, features down the rows; `x3`: the 2048 × 18 ladder weight, ladder `l`'s coefficient `k` in column
  `6 l + k`; `x4`: the 3 × 2048 output weight). Row `p` of the tile depends on row `p` of `x0` only:
    * the linear output at `(p, q)` is `∑ k, x0 (p, k) · x1 (k, q)`;
    * the 18 ladder coefficients of row `p` are `∑ d, (logistic (∑ k, x0 (p, k) · x2 (k, d)) · x0 (p, d)) · x3 (d, j)`;
    * each ladder's continued fraction is evaluated innermost level first, every operation lane-wise on 256 × 1
      columns, so at row `p` it is the scalar recursion `Spec.level` on that row's coefficients;
    * the three ladder values times their rows of `x4` are added one after the other onto a zero tile, and the
      linear output is added last.
  The body is printed in several parts, each part's values a pure function (`k0_payN`) of the ones before; the
  lemmas below read each of them at row `p` and then join them.
-/
import proofs.«107718_j68478958568093_1_alg».proof.Proof.Gen.KernelIdeal.Frame
import proofs.«107718_j68478958568093_1_alg».proof.Proof.Spec
import proofs.«107718_j68478958568093_1_alg».proof.Proof.KLayout
import proofs.«107718_j68478958568093_1_alg».proof.Proof.KMatmul

noncomputable section

namespace Cert.KernelIdeal.Block

open Cert.KernelIdeal Cert.KernelIdeal.Gen Idealize.ShloMosaic Idealize.ShloMosaic.ValueIdx Cert.Layout2 Cert.Spec
open Cert.KernelIdeal.BlockProducts

/-- Column `6 l + k` of the ladder weight holds ladder `l`'s coefficient `k`. -/
abbrev col (l : Fin 3) (k : Fin 6) : Fin 18 := ⟨6 * l.val + k.val, by omega⟩

theorem hz : (![0, 0] : Fin 2 → Nat) = fun _ => 0 := funext fun a => by fin_cases a <;> rfl

variable (x0 : Vec Ideal S256x2048 .f32) (x1 x2 : Vec Ideal S2048x2048 .bf16) (x3 : Vec Ideal S2048x18 .bf16)
  (x4 : Vec Ideal S3x2048 .f32)

/-! ## The block products -/

/-- The linear output: the tile against the first square weight. -/
theorem pay4_at (p : Fin 256) (q : Fin 2048) :
    k0_pay4 (F := Ideal) x0 x1 (ix2 p q) = ∑ k : Fin 2048, x0 (ix2 p k) * x1 (ix2 k q) := by
  unfold k0_pay4 k0_pay3 k0_pay2
  dsimp only
  simp only [shapeCast_self]
  exact matmulW_apply _ _ p q

/-- The ladder coefficients: the gated tile against the ladder weight. -/
theorem pay5_at (p : Fin 256) (j : Fin 18) :
    k0_pay5 (F := Ideal) x0 x2 x3 (ix2 p j)
      = ∑ d : Fin 2048, (Ideal.logistic (∑ k : Fin 2048, x0 (ix2 p k) * x2 (ix2 k d)) * x0 (ix2 p d)) * x3 (ix2 d j) := by
  unfold k0_pay5 k0_pay3 k0_pay2
  dsimp only
  simp only [shapeCast_self]
  rw [matmulA_apply]
  refine Finset.sum_congr rfl fun d _ => ?_
  refine congrArg (· * x3 (ix2 d j)) ?_
  refine congrArg (fun t => Ideal.logistic t * x0 (ix2 p d)) ?_
  exact matmulW_apply _ _ p d

theorem pay6_eq : k0_pay6 (F := Ideal) x4 = x4 := by
  unfold k0_pay6
  exact shapeCast_self _ _

/-! ## The first ladder (columns 0 to 5) -/

theorem pay9_at (p : Fin 256) :
    k0_pay9 (F := Ideal) x0 x2 x3 (ix2 p (0 : Fin 1)) = k0_pay5 (F := Ideal) x0 x2 x3 (ix2 p (0 : Fin 18)) := by
  unfold k0_pay9 k0_pay8
  rw [slice_cols (n := 6) 0 _ _ p (0 : Fin 1) (by decide), slice_cols (n := 18) 0 _ _ p _ (by decide)]
  rfl

theorem pay10_at (p : Fin 256) (k : Fin 5) :
    k0_pay10 (F := Ideal) x0 x2 x3 (ix2 p k) = k0_pay5 (F := Ideal) x0 x2 x3 (ix2 p ⟨0 + (1 + k.val), by omega⟩) := by
  unfold k0_pay10 k0_pay8
  rw [slice_cols (n := 6) 1 _ _ p k (by omega), slice_cols (n := 18) 0 _ _ p _ (by omega)]

/-- After the innermost level: `1 + a₅ / g(1 + 0)`. -/
theorem pay11_at (p : Fin 256) :
    k0_pay11 (F := Ideal) x0 x2 x3 (ix2 p (0 : Fin 1))
      = FloatOps.addf oneP (level (k0_pay5 (F := Ideal) x0 x2 x3 (ix2 p (5 : Fin 18))) zeroP) := by
  unfold k0_pay11
  dsimp only [addf, divf, absf, cmpf, select, broadcast]
  rw [slice_cols (n := 5) 4 _ _ p (0 : Fin 1) (by decide), pay10_at]
  rfl

theorem pay12_at (p : Fin 256) :
    k0_pay12 (F := Ideal) x0 x2 x3 (ix2 p (0 : Fin 1)) = FloatOps.absf (k0_pay11 (F := Ideal) x0 x2 x3 (ix2 p (0 : Fin 1))) := by
  unfold k0_pay12
  rfl

/-- Three more levels on a denominator `1 + f` already formed (its magnitude given beside it). -/
theorem pay13_at (v20 : FVec Ideal S256x5 .f32) (v36 v37 : FVec Ideal S256x1 .f32) (p : Fin 256) (f : Ideal .f32)
    (h36 : v36 (ix2 p (0 : Fin 1)) = FloatOps.addf oneP f)
    (h37 : v37 (ix2 p (0 : Fin 1)) = FloatOps.absf (v36 (ix2 p (0 : Fin 1)))) :
    k0_pay13 (F := Ideal) v20 v36 v37 (ix2 p (0 : Fin 1))
      = FloatOps.addf oneP (level (v20 (ix2 p (1 : Fin 5))) (level (v20 (ix2 p (2 : Fin 5))) (level (v20 (ix2 p (3 : Fin 5))) f))) := by
  unfold k0_pay13
  dsimp only [addf, divf, absf, cmpf, select, broadcast]
  rw [slice_cols (n := 5) 3 _ _ p (0 : Fin 1) (by decide), slice_cols (n := 5) 2 _ _ p (0 : Fin 1) (by decide),
    slice_cols (n := 5) 1 _ _ p (0 : Fin 1) (by decide), h37, h36]
  rfl

theorem pay14_at (v20 : FVec Ideal S256x5 .f32) (v36 v37 : FVec Ideal S256x1 .f32) (p : Fin 256) :
    k0_pay14 (F := Ideal) v20 v36 v37 (ix2 p (0 : Fin 1))
      = FloatOps.cmpf .olt (FloatOps.absf (k0_pay13 (F := Ideal) v20 v36 v37 (ix2 p (0 : Fin 1)))) epsP := by
  unfold k0_pay14
  rfl

theorem pay15_at (v20 : FVec Ideal S256x5 .f32) (v36 v37 : FVec Ideal S256x1 .f32) (p : Fin 256) :
    k0_pay15 (F := Ideal) v20 v36 v37 (ix2 p (0 : Fin 1))
      = FloatOps.cmpf .oge (k0_pay13 (F := Ideal) v20 v36 v37 (ix2 p (0 : Fin 1))) zeroP := by
  unfold k0_pay15
  rfl

/-- The last level of the first ladder, its value times row 0 of the output weight, added onto `v17`. -/
theorem pay16_at (v16 : FVec Ideal S3x2048 .f32) (v17 : FVec Ideal S256x2048 .f32) (v19 : FVec Ideal S256x1 .f32)
    (v20 : FVec Ideal S256x5 .f32) (v75 : FVec Ideal S256x1 .f32) (v78 v80 : IVec S256x1 1) (p : Fin 256) (q : Fin 2048)
    (f : Ideal .f32) (h75 : v75 (ix2 p (0 : Fin 1)) = FloatOps.addf oneP f)
    (h78 : v78 (ix2 p (0 : Fin 1)) = FloatOps.cmpf .olt (FloatOps.absf (v75 (ix2 p (0 : Fin 1)))) epsP)
    (h80 : v80 (ix2 p (0 : Fin 1)) = FloatOps.cmpf .oge (v75 (ix2 p (0 : Fin 1))) zeroP) :
    k0_pay16 (F := Ideal) v16 v17 v19 v20 v75 v78 v80 (ix2 p q)
      = FloatOps.addf (v17 (ix2 p q))
          (FloatOps.mulf (FloatOps.addf (v19 (ix2 p (0 : Fin 1))) (level (v20 (ix2 p (0 : Fin 5))) f)) (v16 (ix2 (0 : Fin 3) q))) := by
  unfold k0_pay16
  dsimp only [addf, mulf, divf, absf, cmpf, select, broadcast]
  rw [bcast_col (by decide) _ _ p q, bcast_row (by decide) _ _ p q, slice_row (R := 3) 0 _ _ q (by decide)]
  dsimp only [addf, mulf, divf, absf, cmpf, select, broadcast]
  rw [slice_cols (n := 5) 0 _ _ p (0 : Fin 1) (by decide), h78, h80, h75]
  rfl

/-! ## The second ladder (columns 6 to 11) -/

theorem pay18_at (A : FVec Ideal S256x18 .f32) (p : Fin 256) :
    k0_pay18 (F := Ideal) A (ix2 p (0 : Fin 1)) = A (ix2 p (6 : Fin 18)) := by
  unfold k0_pay18 k0_pay17
  rw [slice_cols (n := 6) 0 _ _ p (0 : Fin 1) (by decide), slice_cols (n := 18) 6 _ _ p _ (by decide)]
  rfl

theorem pay19_at (A : FVec Ideal S256x18 .f32) (p : Fin 256) (k : Fin 5) :
    k0_pay19 (F := Ideal) A (ix2 p k) = A (ix2 p ⟨6 + (1 + k.val), by omega⟩) := by
  unfold k0_pay19 k0_pay17
  rw [slice_cols (n := 6) 1 _ _ p k (by omega), slice_cols (n := 18) 6 _ _ p _ (by omega)]

/-- After the two innermost levels. -/
theorem pay20_at (A : FVec Ideal S256x18 .f32) (p : Fin 256) :
    k0_pay20 (F := Ideal) A (ix2 p (0 : Fin 1))
      = FloatOps.addf oneP (level (A (ix2 p (10 : Fin 18))) (level (A (ix2 p (11 : Fin 18))) zeroP)) := by
  unfold k0_pay20
  dsimp only [addf, divf, absf, cmpf, select, broadcast]
  rw [slice_cols (n := 5) 4 _ _ p (0 : Fin 1) (by decide), slice_cols (n := 5) 3 _ _ p (0 : Fin 1) (by decide), pay19_at, pay19_at]
  rfl

theorem pay21_at (A : FVec Ideal S256x18 .f32) (p : Fin 256) :
    k0_pay21 (F := Ideal) A (ix2 p (0 : Fin 1)) = FloatOps.absf (k0_pay20 (F := Ideal) A (ix2 p (0 : Fin 1))) := by
  unfold k0_pay21
  rfl

/-- The last three levels of the second ladder, its value times row 1 of the output weight, added onto `v92`. -/
theorem pay22_at (v16 : FVec Ideal S3x2048 .f32) (v92 : FVec Ideal S256x2048 .f32) (v94 : FVec Ideal S256x1 .f32)
    (v95 : FVec Ideal S256x5 .f32) (v124 v125 : FVec Ideal S256x1 .f32) (p : Fin 256) (q : Fin 2048) (f : Ideal .f32)
    (h124 : v124 (ix2 p (0 : Fin 1)) = FloatOps.addf oneP f)
    (h125 : v125 (ix2 p (0 : Fin 1)) = FloatOps.absf (v124 (ix2 p (0 : Fin 1)))) :
    k0_pay22 (F := Ideal) v16 v92 v94 v95 v124 v125 (Scalar.ofBits .f32 0x3C23D70A#32) (ix2 p q)
      = FloatOps.addf (v92 (ix2 p q))
          (FloatOps.mulf (FloatOps.addf (v94 (ix2 p (0 : Fin 1)))
            (level (v95 (ix2 p (0 : Fin 5))) (level (v95 (ix2 p (1 : Fin 5))) (level (v95 (ix2 p (2 : Fin 5))) f))))
            (v16 (ix2 (1 : Fin 3) q))) := by
  unfold k0_pay22
  dsimp only [addf, mulf, divf, absf, cmpf, select, broadcast]
  rw [bcast_col (by decide) _ _ p q, bcast_row (by decide) _ _ p q, slice_row (R := 3) 1 _ _ q (by decide)]
  dsimp only [addf, mulf, divf, absf, cmpf, select, broadcast]
  rw [slice_cols (n := 5) 2 _ _ p (0 : Fin 1) (by decide), slice_cols (n := 5) 1 _ _ p (0 : Fin 1) (by decide),
    slice_cols (n := 5) 0 _ _ p (0 : Fin 1) (by decide), h125, h124]
  rfl

/-! ## The third ladder (columns 12 to 17) and the final sum -/

theorem pay24_at (A : FVec Ideal S256x18 .f32) (p : Fin 256) :
    k0_pay24 (F := Ideal) A (ix2 p (0 : Fin 1)) = A (ix2 p (12 : Fin 18)) := by
  unfold k0_pay24 k0_pay23
  rw [slice_cols (n := 6) 0 _ _ p (0 : Fin 1) (by decide), slice_cols (n := 18) 12 _ _ p _ (by decide)]
  rfl

theorem pay25_at (A : FVec Ideal S256x18 .f32) (p : Fin 256) (k : Fin 5) :
    k0_pay25 (F := Ideal) A (ix2 p k) = A (ix2 p ⟨12 + (1 + k.val), by omega⟩) := by
  unfold k0_pay25 k0_pay23
  rw [slice_cols (n := 6) 1 _ _ p k (by omega), slice_cols (n := 18) 12 _ _ p _ (by omega)]

/-- After the three innermost levels. -/
theorem pay27_at (v170 : FVec Ideal S256x5 .f32) (p : Fin 256) :
    k0_pay27 (F := Ideal) v170 (k0_pay26 (F := Ideal)) (ix2 p (0 : Fin 1))
      = FloatOps.addf oneP (level (v170 (ix2 p (2 : Fin 5))) (level (v170 (ix2 p (3 : Fin 5))) (level (v170 (ix2 p (4 : Fin 5))) zeroP))) := by
  unfold k0_pay27 k0_pay26
  dsimp only [addf, divf, absf, cmpf, select, broadcast]
  rw [slice_cols (n := 5) 4 _ _ p (0 : Fin 1) (by decide), slice_cols (n := 5) 3 _ _ p (0 : Fin 1) (by decide),
    slice_cols (n := 5) 2 _ _ p (0 : Fin 1) (by decide)]
  rfl

theorem pay28_at (v170 : FVec Ideal S256x5 .f32) (p : Fin 256) :
    k0_pay28 (F := Ideal) v170 (k0_pay26 (F := Ideal)) (ix2 p (0 : Fin 1))
      = FloatOps.absf (k0_pay27 (F := Ideal) v170 (k0_pay26 (F := Ideal)) (ix2 p (0 : Fin 1))) := by
  unfold k0_pay28
  rfl

theorem pay29_at (p : Fin 256) : k0_pay29 (F := Ideal) (ix2 p (0 : Fin 1)) = epsP := rfl

/-- The last two levels of the third ladder, its value times row 2 of the output weight, added onto `v167`, and
    the linear output `v7` added to that. -/
theorem pay1_at (v7 : FVec Ideal S256x2048 .f32) (v16 : FVec Ideal S3x2048 .f32) (v167 : FVec Ideal S256x2048 .f32)
    (v169 : FVec Ideal S256x1 .f32) (v170 : FVec Ideal S256x5 .f32) (v212 v213 v214 : FVec Ideal S256x1 .f32)
    (p : Fin 256) (q : Fin 2048) (f : Ideal .f32)
    (h212 : v212 (ix2 p (0 : Fin 1)) = FloatOps.addf oneP f)
    (h213 : v213 (ix2 p (0 : Fin 1)) = FloatOps.absf (v212 (ix2 p (0 : Fin 1))))
    (h214 : v214 (ix2 p (0 : Fin 1)) = epsP) :
    k0_pay1 (F := Ideal) v7 v16 v167 v169 v170 v212 v213 v214 (ix2 p q)
      = FloatOps.addf (v7 (ix2 p q)) (FloatOps.addf (v167 (ix2 p q))
          (FloatOps.mulf (FloatOps.addf (v169 (ix2 p (0 : Fin 1)))
            (level (v170 (ix2 p (0 : Fin 5))) (level (v170 (ix2 p (1 : Fin 5))) f)))
            (v16 (ix2 (2 : Fin 3) q)))) := by
  unfold k0_pay1
  dsimp only [addf, mulf, divf, absf, cmpf, select, broadcast]
  rw [bcast_col (by decide) _ _ p q, bcast_row (by decide) _ _ p q, slice_row (R := 3) 2 _ _ q (by decide)]
  dsimp only [addf, mulf, divf, absf, cmpf, select, broadcast]
  rw [slice_cols (n := 5) 1 _ _ p (0 : Fin 1) (by decide), slice_cols (n := 5) 0 _ _ p (0 : Fin 1) (by decide),
    h213, h214, h212]
  rfl

/-! ## The tile -/

/-- Entry `(p, q)` of the output tile is the common function `Spec.out` of row `p` of the input tile. -/
theorem out0_5_apply (p : Fin 256) (q : Fin 2048) :
    out0_5 (F := Ideal) x0 x1 x2 x3 x4 (ix2 p q)
      = Spec.out (fun k => x0 (ix2 p k)) (fun o k => x1 (ix2 k o)) (fun d k => x2 (ix2 k d))
          (fun l k d => x3 (ix2 d (col l k))) (fun o l => x4 (ix2 l o)) q := by
  unfold out0_5
  rw [View.canon_unit_zero hz]
  simp only [View.ld_unit_zero (S := S256x2048) hz, View.ld_unit_zero (S := S2048x2048) hz,
    View.ld_unit_zero (S := S2048x18) hz, View.ld_unit_zero (S := S3x2048) hz]
  rw [pay1_at _ _ _ _ _ _ _ _ p q _ (pay27_at _ p) (pay28_at _ p) (pay29_at p)]
  rw [pay22_at _ _ _ _ _ _ p q _ (pay20_at _ p) (pay21_at _ p)]
  rw [pay16_at _ _ _ _ _ _ _ p q _
    (pay13_at _ _ _ p _ (pay11_at x0 x2 x3 p) (pay12_at x0 x2 x3 p)) (pay14_at _ _ _ p) (pay15_at _ _ _ p)]
  simp only [pay24_at, pay25_at, pay18_at, pay19_at, pay9_at, pay10_at, pay6_eq, pay4_at, pay5_at]
  unfold Spec.out
  rw [← Spec.sum_three]
  rfl

end Cert.KernelIdeal.Block

end
-- ==== Proof.KTiles.lean ====
/-
  From the tiles to the result array, and through the host operations around the region.

  The region reads five arrays the host prepares: the input reshaped to 8192 rows (row `2048 b + s` is row `(b, s)`),
  the two square weights transposed (features down the rows), the ladder weight flattened to 18 rows and transposed
  (ladder `l`'s coefficient `k` in column `6 l + k`), and the output weight transposed. Grid point `t` of 32 works
  on rows `256 t … 256 t + 255`: its input tile is those rows, the weights are whole at every point, and its
  output tile is written back to the same rows, so the 32 tiles fill the 8192 × 2048 result, every entry
  `(r, o)` being `Spec.out` of row `r`. The host reshapes that to [4, 2048, 2048]; read at `(b, s, o)` it is the
  common function `Spec.whole` of the five arguments.
-/
import proofs.«107718_j68478958568093_1_alg».proof.Proof.Gen.KernelIdeal.Frame
import proofs.«107718_j68478958568093_1_alg».proof.Proof.Spec
import proofs.«107718_j68478958568093_1_alg».proof.Proof.KBlock
import Idealize.ShloMosaic.Lib.Pipeline.Value
import Idealize.ShloMosaic.Lib.StableHlo.Run
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo Cert.KernelIdeal.Block
open Idealize.ShloMosaic.Pipeline (Dat)

variable (m : (ℓ : Loc nD τ sig) → Buf (Elt Ideal) ℓ) (ρ : Dev nD → PrngReg)

/-! ## The arrays the region finds -/

/-- The input as the region finds it: row `2048 b + s` is row `(b, s)` of the argument. -/
theorem V_v0_apply (c : Dev nD) (b : Fin 4) (s : Fin 2048) (d : Fin 2048) (hr : 2048 * b.val + s.val < 8192) :
    (V m c main_v0 : S8192x2048.Idx → EReal) (ix2 ⟨2048 * b.val + s.val, hr⟩ d)
      = (m ((c : Thread nD τ).loc main_arg0) : S4x2048x2048.Idx → EReal) (ix3 b s d) := by
  have e : (V m c main_v0 : S8192x2048.Idx → EReal)
      = shapeCast S8192x2048 (m ((c : Thread nD τ).loc main_arg0) : S4x2048x2048.Idx → EReal) shapeCasts_S4x2048x2048_S8192x2048 := by
    show StableHlo.after hostOps0 (fun b => m (c, b)) (Proc.devRef .tc main_v0) = _
    after_results
    rfl
  refine (congrFun e _).trans ?_
  refine shapeCast_apply (s := S4x2048x2048) (t := S8192x2048) _ shapeCasts_S4x2048x2048_S8192x2048 _ (ix3 b s d) ?_
  rw [Shape.rowMajor_val_three, Shape.rowMajor_val_two]
  show (b.val * 2048 + s.val) * 2048 + d.val = (2048 * b.val + s.val) * 2048 + d.val
  omega

/-- A square weight as the region finds it: transposed. -/
theorem V_v2_apply (c : Dev nD) (k o : Fin 2048) :
    (V m c main_v2 : S2048x2048.Idx → EReal) (ix2 k o)
      = (m ((c : Thread nD τ).loc main_arg1) : S2048x2048.Idx → EReal) (ix2 o k) := by
  have e : (V m c main_v2 : S2048x2048.Idx → EReal)
      = truncf (F := Ideal) .bf16 (transpose S2048x2048 [1, 0] (m ((c : Thread nD τ).loc main_arg1) : S2048x2048.Idx → EReal) transposes_S2048x2048_S2048x2048_1_0) bitsLt_bf16_f32 := by
    show StableHlo.after hostOps0 (fun b => m (c, b)) (Proc.devRef .tc main_v2) = _
    after_results
  refine (congrFun e _).trans ?_
  show transpose S2048x2048 [1, 0] _ _ (ix2 k o) = _
  exact transpose_apply _ _ _ _ _ fun b => by
    match b with
    | ⟨0, _⟩ => rfl
    | ⟨1, _⟩ => rfl

theorem V_v4_apply (c : Dev nD) (k d : Fin 2048) :
    (V m c main_v4 : S2048x2048.Idx → EReal) (ix2 k d)
      = (m ((c : Thread nD τ).loc main_arg2) : S2048x2048.Idx → EReal) (ix2 d k) := by
  have e : (V m c main_v4 : S2048x2048.Idx → EReal)
      = truncf (F := Ideal) .bf16 (transpose S2048x2048 [1, 0] (m ((c : Thread nD τ).loc main_arg2) : S2048x2048.Idx → EReal) transposes_S2048x2048_S2048x2048_1_0) bitsLt_bf16_f32 := by
    show StableHlo.after hostOps0 (fun b => m (c, b)) (Proc.devRef .tc main_v4) = _
    after_results
  refine (congrFun e _).trans ?_
  show transpose S2048x2048 [1, 0] _ _ (ix2 k d) = _
  exact transpose_apply _ _ _ _ _ fun b => by
    match b with
    | ⟨0, _⟩ => rfl
    | ⟨1, _⟩ => rfl

/-- The ladder weight as the region finds it: coefficient `k` of ladder `l` at feature `d` sits at `(d, 6 l + k)`. -/
theorem V_v7_apply (c : Dev nD) (d : Fin 2048) (l : Fin 3) (k : Fin 6) :
    (V m c main_v7 : S2048x18.Idx → EReal) (ix2 d (col l k))
      = (m ((c : Thread nD τ).loc main_arg3) : S3x6x2048.Idx → EReal) (ix3 l k d) := by
  have e : (V m c main_v7 : S2048x18.Idx → EReal)
      = truncf (F := Ideal) .bf16 (transpose S2048x18 [1, 0] (shapeCast S18x2048 (m ((c : Thread nD τ).loc main_arg3) : S3x6x2048.Idx → EReal) shapeCasts_S3x6x2048_S18x2048) transposes_S18x2048_S2048x18_1_0) bitsLt_bf16_f32 := by
    show StableHlo.after hostOps0 (fun b => m (c, b)) (Proc.devRef .tc main_v7) = _
    after_results
    rfl
  refine (congrFun e _).trans ?_
  show transpose (s := S18x2048) S2048x18 [1, 0] (shapeCast S18x2048 (m ((c : Thread nD τ).loc main_arg3) : S3x6x2048.Idx → EReal) shapeCasts_S3x6x2048_S18x2048) transposes_S18x2048_S2048x18_1_0 (ix2 d (col l k)) = _
  refine (transpose_apply _ _ _ (ix2 d (col l k)) (ix2 (col l k) d) fun b => by
    match b with
    | ⟨0, _⟩ => rfl
    | ⟨1, _⟩ => rfl).trans ?_
  refine shapeCast_apply (s := S3x6x2048) (t := S18x2048) _ shapeCasts_S3x6x2048_S18x2048 _ (ix3 l k d) ?_
  rw [Shape.rowMajor_val_three, Shape.rowMajor_val_two]
  show (l.val * 6 + k.val) * 2048 + d.val = (6 * l.val + k.val) * 2048 + d.val
  omega

/-- The output weight as the region finds it: transposed. -/
theorem V_v8_apply (c : Dev nD) (l : Fin 3) (o : Fin 2048) :
    (V m c main_v8 : S3x2048.Idx → EReal) (ix2 l o)
      = (m ((c : Thread nD τ).loc main_arg4) : S2048x3.Idx → EReal) (ix2 o l) := by
  have e : (V m c main_v8 : S3x2048.Idx → EReal)
      = transpose S3x2048 [1, 0] (m ((c : Thread nD τ).loc main_arg4) : S2048x3.Idx → EReal) transposes_S2048x3_S3x2048_1_0 := by
    show StableHlo.after hostOps0 (fun b => m (c, b)) (Proc.devRef .tc main_v8) = _
    after_results
  refine (congrFun e _).trans ?_
  exact transpose_apply _ _ _ _ _ fun b => by
    match b with
    | ⟨0, _⟩ => rfl
    | ⟨1, _⟩ => rfl

/-- `Spec.out` depends on its five operands through their entries only. -/
theorem out_congr {x x' : Fin 2048 → EReal} {uw uw' gw gw' : Fin 2048 → Fin 2048 → EReal}
    {lw lw' : Fin 3 → Fin 6 → Fin 2048 → EReal} {vw vw' : Fin 2048 → Fin 3 → EReal} (o : Fin 2048)
    (hx : ∀ k, x k = x' k) (hu : ∀ o k, uw o k = uw' o k) (hg : ∀ d k, gw d k = gw' d k)
    (hl : ∀ l k d, lw l k d = lw' l k d) (hv : ∀ o l, vw o l = vw' o l) :
    Spec.out x uw gw lw vw o = Spec.out x' uw' gw' lw' vw' o := by
  obtain rfl : x = x' := funext hx
  obtain rfl : uw = uw' := funext fun o => funext (hu o)
  obtain rfl : gw = gw' := funext fun d => funext (hg d)
  obtain rfl : lw = lw' := funext fun l => funext fun k => funext (hl l k)
  obtain rfl : vw = vw' := funext fun o => funext (hv o)
  rfl

/-! ## The tiles -/

/-- The printed index maps over the 32 grid points: the input and output tiles are block row `t`, the weights
    block (0, 0). -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Entry `(r, o)` of the region's result, from row `r` of the input array and the four weights as the region finds them. -/
def rowG (c : Dev nD) (r : Fin 8192) (o : Fin 2048) : EReal :=
  Spec.out (fun k => (V m c main_v0 : S8192x2048.Idx → EReal) (ix2 r k))
    (fun o k => (V m c main_v2 : S2048x2048.Idx → EReal) (ix2 k o))
    (fun d k => (V m c main_v4 : S2048x2048.Idx → EReal) (ix2 k d))
    (fun l k d => (V m c main_v7 : S2048x18.Idx → EReal) (ix2 d (col l k)))
    (fun o l => (V m c main_v8 : S3x2048.Idx → EReal) (ix2 l o)) o

/-- The result of the region as one function of the arrays it finds. -/
def arrG (c : Dev nD) : S8192x2048.Idx → EReal := fun i => rowG m c (i 0) (i 1)

/-- The input tile at point `t` is rows `256 t …` of the input array. -/
theorem iblk0_apply (c : Dev nD) (t : Fin cfg0.N) (p : Fin 256) (k : Fin 2048) (hr : 256 * t.val + p.val < 8192) :
    (iblk m c 0 t : Vec Ideal S256x2048 .f32) (ix2 p k) = (V m c main_v0 : S8192x2048.Idx → EReal) (ix2 ⟨256 * t.val + p.val, hr⟩ k) := by
  obtain ⟨e0, e1, -⟩ := idx_facts t
  unfold iblk
  rw [View.read_apply]
  show V m c main_v0 _ = V m c main_v0 _
  congr 1
  funext a
  apply Fin.ext
  match a with
  | ⟨0, _⟩ => show win0_0.index t 0 * 256 + 1 * p.val = 256 * t.val + p.val; rw [e0]; omega
  | ⟨1, _⟩ => show win0_0.index t 1 * 2048 + 1 * k.val = k.val; rw [e1]; omega

/-- Each weight's tile is the whole weight at every point. -/
theorem iblk1_apply (c : Dev nD) (t : Fin cfg0.N) (k o : Fin 2048) :
    (iblk m c 1 t : Vec Ideal S2048x2048 .bf16) (ix2 k o) = (V m c main_v2 : S2048x2048.Idx → EReal) (ix2 k o) := by
  obtain ⟨-, -, -, -, e0, e1, -⟩ := idx_facts t
  unfold iblk
  rw [View.read_apply]
  show V m c main_v2 _ = V m c main_v2 _
  congr 1
  funext a
  apply Fin.ext
  match a with
  | ⟨0, _⟩ => show win0_1.index t 0 * 2048 + 1 * k.val = k.val; rw [e0]; omega
  | ⟨1, _⟩ => show win0_1.index t 1 * 2048 + 1 * o.val = o.val; rw [e1]; omega

theorem iblk2_apply (c : Dev nD) (t : Fin cfg0.N) (k d : Fin 2048) :
    (iblk m c 2 t : Vec Ideal S2048x2048 .bf16) (ix2 k d) = (V m c main_v4 : S2048x2048.Idx → EReal) (ix2 k d) := by
  obtain ⟨-, -, -, -, -, -, e0, e1, -⟩ := idx_facts t
  unfold iblk
  rw [View.read_apply]
  show V m c main_v4 _ = V m c main_v4 _
  congr 1
  funext a
  apply Fin.ext
  match a with
  | ⟨0, _⟩ => show win0_2.index t 0 * 2048 + 1 * k.val = k.val; rw [e0]; omega
  | ⟨1, _⟩ => show win0_2.index t 1 * 2048 + 1 * d.val = d.val; rw [e1]; omega

theorem iblk3_apply (c : Dev nD) (t : Fin cfg0.N) (d : Fin 2048) (j : Fin 18) :
    (iblk m c 3 t : Vec Ideal S2048x18 .bf16) (ix2 d j) = (V m c main_v7 : S2048x18.Idx → EReal) (ix2 d j) := by
  obtain ⟨-, -, -, -, -, -, -, -, e0, e1, -⟩ := idx_facts t
  unfold iblk
  rw [View.read_apply]
  show V m c main_v7 _ = V m c main_v7 _
  congr 1
  funext a
  apply Fin.ext
  match a with
  | ⟨0, _⟩ => show win0_3.index t 0 * 2048 + 1 * d.val = d.val; rw [e0]; omega
  | ⟨1, _⟩ => show win0_3.index t 1 * 18 + 1 * j.val = j.val; rw [e1]; omega

theorem iblk4_apply (c : Dev nD) (t : Fin cfg0.N) (l : Fin 3) (o : Fin 2048) :
    (iblk m c 4 t : Vec Ideal S3x2048 .f32) (ix2 l o) = (V m c main_v8 : S3x2048.Idx → EReal) (ix2 l o) := by
  obtain ⟨-, -, -, -, -, -, -, -, -, -, e0, e1⟩ := idx_facts t
  unfold iblk
  rw [View.read_apply]
  show V m c main_v8 _ = V m c main_v8 _
  congr 1
  funext a
  apply Fin.ext
  match a with
  | ⟨0, _⟩ => show win0_4.index t 0 * 3 + 1 * l.val = l.val; rw [e0]; omega
  | ⟨1, _⟩ => show win0_4.index t 1 * 2048 + 1 * o.val = o.val; rw [e1]; omega

/-- Where point `t`'s output tile sits in the result. -/
theorem emb5 (t : Fin cfg0.N) (p : Fin 256) (q : Fin 2048) (hr : 256 * t.val + p.val < 8192) :
    ((cfg0.win 5).blk t).view.emb (ix2 p q) = (ix2 ⟨256 * t.val + p.val, hr⟩ q : S8192x2048.Idx) := by
  obtain ⟨-, -, e0, e1, -⟩ := idx_facts t
  funext a
  apply Fin.ext
  match a with
  | ⟨0, _⟩ => show win0_5.index t 0 * 256 + 1 * p.val = 256 * t.val + p.val; rw [e0]; omega
  | ⟨1, _⟩ => show win0_5.index t 1 * 2048 + 1 * q.val = q.val; rw [e1]; omega

end Cert.KernelIdeal.Whole

end
-- ==== Proof.KArray.lean ====
/-
  The 32 output tiles fill the region's result; the host's reshape of it is the common function of the arguments;
  and the kernel program's run, read.
-/
import proofs.«107718_j68478958568093_1_alg».proof.Proof.KTiles

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo Cert.KernelIdeal.Block
open Idealize.ShloMosaic.Pipeline (Dat)

variable (m : (ℓ : Loc nD τ sig) → Buf (Elt Ideal) ℓ) (ρ : Dev nD → PrngReg)

/-- What point `t` writes back is tile `t` of `arrG`. -/
theorem flushed5_eq (c : Dev nD) (t : Fin cfg0.N) :
    (dats m 0 c).flushed 5 t = ((cfg0.win 5).blk t).view.read (Elt Ideal) (arrG m c) := by
  have hN : cfg0.N = 32 := N_0
  have ht : t.val < 32 := by have := t.isLt; omega
  show (cfg0.win 5).cut (grid0.coords t) ((dats m 0 c).after 5 t) = _
  rw [after0_5]
  funext j
  obtain ⟨p, q, rfl⟩ : ∃ (p : Fin 256) (q : Fin 2048), j = ix2 p q := ⟨j 0, j 1, eq_ix2 j⟩
  have hr : 256 * t.val + p.val < 8192 := by have := p.isLt; omega
  show out0_5 (F := Ideal) (iblk m c 0 t) (iblk m c 1 t) (iblk m c 2 t) (iblk m c 3 t) (iblk m c 4 t) (ix2 p q)
    = arrG m c (((cfg0.win 5).blk t).view.emb (ix2 p q))
  rw [emb5 t p q hr]
  show _ = rowG m c ⟨256 * t.val + p.val, hr⟩ q
  refine (out0_5_apply (iblk m c 0 t) (iblk m c 1 t) (iblk m c 2 t) (iblk m c 3 t) (iblk m c 4 t) p q).trans ?_
  unfold rowG
  exact out_congr q (fun k => iblk0_apply m c t p k hr) (fun o k => iblk1_apply m c t k o) (fun d k => iblk2_apply m c t k d)
    (fun l k d => iblk3_apply m c t d (col l k)) (fun o l => iblk4_apply m c t l o)

/-- An index of the result is in point `t`'s tile iff each coordinate is in the tile's range on its axis. -/
theorem mem_blk5 (t : Fin cfg0.N) (i : S8192x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v9).slice (win0_5.rect t)).set ↔ _
  rw [View.set_slice_whole, Rect.mem_set_unit]
  exact Iff.rfl

/-- The 32 tiles fill the result: row `r` is in tile `r / 256`. -/
theorem cover5 (i : S8192x2048.Idx) :
    ∃ t : Fin cfg0.N, (cfg0.win 5).flush t = true ∧ i ∈ ((cfg0.win 5).blk t).view.set := by
  have hN : cfg0.N = 32 := N_0
  have h0 : (i 0).val < 8192 := (i 0).isLt
  have h1 : (i 1).val < 2048 := (i 1).isLt
  have hq : (i 0).val / 256 < cfg0.N := by omega
  obtain ⟨-, -, e0, e1, -⟩ := idx_facts ⟨(i 0).val / 256, hq⟩
  refine ⟨⟨(i 0).val / 256, hq⟩, flush0_5 _, ?_⟩
  rw [mem_blk5]
  intro a
  match a with
  | ⟨0, _⟩ =>
    show win0_5.index ⟨(i 0).val / 256, hq⟩ (0 : Fin 2) * 256 ≤ (i 0).val ∧ (i 0).val < win0_5.index ⟨(i 0).val / 256, hq⟩ (0 : Fin 2) * 256 + 256
    rw [e0]
    show (i 0).val / 256 * 256 ≤ (i 0).val ∧ (i 0).val < (i 0).val / 256 * 256 + 256
    omega
  | ⟨1, _⟩ =>
    show win0_5.index ⟨(i 0).val / 256, hq⟩ (1 : Fin 2) * 2048 ≤ (i 1).val ∧ (i 1).val < win0_5.index ⟨(i 0).val / 256, hq⟩ (1 : Fin 2) * 2048 + 2048
    rw [e1]
    omega

/-- The region's result array after the run. -/
theorem final5 (c : Dev nD) : (dats m 0 c).arrAt 5 cfg0.N = arrG m c :=
  (dats m 0 c).arrAt_eq_of_cover 5 (arrG m c) (fun t _ => flushed5_eq m c t) (cover5)

/-! ## The host's reshape after the region, and the run -/

/-- @main's result: the region's result reshaped, which is the common function of the arguments. -/
theorem result_eq (c : Dev nD) :
    Pipeline.afterTail₀ cfgs (dats m) 0 (V0 m) [hostOps1] c main_v10
      = Spec.whole (m ((c : Thread nD τ).loc main_arg0)) (m ((c : Thread nD τ).loc main_arg1)) (m ((c : Thread nD τ).loc main_arg2))
          (m ((c : Thread nD τ).loc main_arg3)) (m ((c : Thread nD τ).loc main_arg4)) := by
  have e : Pipeline.afterTail₀ cfgs (dats m) 0 (V0 m) [hostOps1] c main_v10
      = shapeCast S4x2048x2048 (arrG m c) shapeCasts_S8192x2048_S4x2048x2048 := by
    unfold Pipeline.afterTail₀
    show StableHlo.after hostOps1 _ (Proc.devRef .tc main_v10) = _
    after_results
    rw [show Pipeline.withArrays spec0 c (V0 m c) (fun w => (dats m 0 c).arrAt w cfg0.N) (Proc.devRef .tc main_v9) = arrG m c from
      (Pipeline.withArrays_arr spec0 launch0.win.arr_inj c _ _ 5).trans (final5 m c)]
    rfl
  rw [e]
  funext i
  obtain ⟨b, s, o, rfl⟩ : ∃ (b : Fin 4) (s : Fin 2048) (o : Fin 2048), i = ix3 b s o := ⟨i 0, i 1, i 2, eq_ix3 i⟩
  have hr : 2048 * b.val + s.val < 8192 := by have := b.isLt; have := s.isLt; omega
  rw [shapeCast_apply (arrG m c) shapeCasts_S8192x2048_S4x2048x2048 (ix3 b s o) (ix2 ⟨2048 * b.val + s.val, hr⟩ o) (by
    rw [Shape.rowMajor_val_three, Shape.rowMajor_val_two]
    show (2048 * b.val + s.val) * 2048 + o.val = (b.val * 2048 + s.val) * 2048 + o.val
    omega)]
  show rowG m c ⟨2048 * b.val + s.val, hr⟩ o
    = Spec.out (fun k => (m ((c : Thread nD τ).loc main_arg0) : S4x2048x2048.Idx → EReal) (ix3 b s k))
        (fun o k => (m ((c : Thread nD τ).loc main_arg1) : S2048x2048.Idx → EReal) (ix2 o k))
        (fun d k => (m ((c : Thread nD τ).loc main_arg2) : S2048x2048.Idx → EReal) (ix2 d k))
        (fun l k d => (m ((c : Thread nD τ).loc main_arg3) : S3x6x2048.Idx → EReal) (ix3 l k d))
        (fun o l => (m ((c : Thread nD τ).loc main_arg4) : S2048x3.Idx → EReal) (ix2 o l)) o
  unfold rowG
  exact out_congr o (fun k => V_v0_apply m c b s k hr) (fun o k => V_v2_apply m c k o) (fun d k => V_v4_apply m c k d)
    (fun l k d => V_v7_apply m c d l k) (fun o l => V_v8_apply m c l o)

/-- The kernel program's run, read: @main's result is `Spec.whole` of the arguments, which end unchanged. -/
theorem run : θ_run defs (onTc (τ := τ) (main (F := Ideal))) ⟨m, fun _ => 0, ρ⟩ (fun r => ∀ c : Dev nD,
      r.2.mem ((c.tc : Thread nD τ).loc main_v10)
        = Spec.whole (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v10 (Pipeline.mem_restRefs_of main_v10 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Whole

end
-- ==== Proof.RefSide.lean ====
/-
  The reference program's last stage, read index by index, is the common function of the specification.

  Entry (b, s, o) of the reference's result is the sum of two contractions: input row (b, s) against row o of the first
  weight, and the three ladder values of that row against row o of the last weight. A ladder's value is the leading
  coefficient plus a five-level continued fraction read bottom up: each level divides one coefficient by the guarded
  sum of one and the level below. The six coefficients are entries of one contraction, the gated row against the
  ladder weight, and the gate is the logistic function of a contraction written out as 1 / (1 + e^(−t)).
-/
import proofs.«107718_j68478958568093_1_alg».proof.Proof.RefRead
import proofs.«107718_j68478958568093_1_alg».proof.Proof.Spec
import Idealize.ShloMosaic.Lib.ValueIdx
import Idealize.ShloMosaic.Lib.Pipeline.Value
import Idealize.ShloMosaic.PureOps.Ideal.Laws

noncomputable section

namespace Cert.RefSide

open Idealize.ShloMosaic Cert.ReferenceIdeal Cert.ReferenceIdeal.ReadP
open Idealize.ShloMosaic.ValueIdx (ix2 ix3 ix4)

section stages

variable (x0 : (⟨S4x2048x2048, .f32⟩ : BufTy).Contents (Elt Ideal)) (x1 x2 : (⟨S2048x2048, .f32⟩ : BufTy).Contents (Elt Ideal))
  (x3 : (⟨S3x6x2048, .f32⟩ : BufTy).Contents (Elt Ideal)) (x4 : (⟨S2048x3, .f32⟩ : BufTy).Contents (Elt Ideal))

/-- The six coefficients of ladder `l` for input row `(b, s)`, the weights read in the arguments' layout. -/
abbrev coeffAt (b : Fin 4) (s : Fin 2048) (l : Fin 3) : Fin 6 → EReal :=
  Spec.coeff (fun k => x0 (ix3 b s k)) (fun d k => x2 (ix2 d k)) (fun l k d => x3 (ix3 l k d)) l

/-! ## The two outer contractions and the gate -/

/-- The first contraction at `(b, s, o)`: input row `(b, s)` against row `o` of the first weight. -/
theorem v0_at (b : Fin 4) (s : Fin 2048) (o : Fin 2048) :
    val_main_v0 (F := Ideal) x0 x1 (ix3 b s o) = ∑ k : Fin 2048, x0 (ix3 b s k) * x1 (ix2 o k) := by
  rw [val_main_v0_apply]
  refine Finset.sum_congr rfl fun k _ => ?_
  have el : lidx_main_v0 (ix3 b s o) k = ix3 b s k :=
    funext fun a => Fin.ext (by match a with | ⟨0, _⟩ => rfl | ⟨1, _⟩ => rfl | ⟨2, _⟩ => rfl)
  have er : ridx_main_v0 (ix3 b s o) k = ix2 o k :=
    funext fun a => Fin.ext (by match a with | ⟨0, _⟩ => rfl | ⟨1, _⟩ => rfl)
  rw [el, er]

/-- The gate's contraction at `(b, s, d)`: input row `(b, s)` against row `d` of the gate weight. -/
theorem v1_at (b : Fin 4) (s : Fin 2048) (d : Fin 2048) :
    val_main_v1 (F := Ideal) x0 x2 (ix3 b s d) = ∑ k : Fin 2048, x0 (ix3 b s k) * x2 (ix2 d k) := by
  rw [val_main_v1_apply]
  refine Finset.sum_congr rfl fun k _ => ?_
  have el : lidx_main_v1 (ix3 b s d) k = ix3 b s k :=
    funext fun a => Fin.ext (by match a with | ⟨0, _⟩ => rfl | ⟨1, _⟩ => rfl | ⟨2, _⟩ => rfl)
  have er : ridx_main_v1 (ix3 b s d) k = ix2 d k :=
    funext fun a => Fin.ext (by match a with | ⟨0, _⟩ => rfl | ⟨1, _⟩ => rfl)
  rw [el, er]

/-- The gated input at `(b, s, d)`: `1 / (1 + e^(−t))` of the gate's contraction `t`, times the input entry. -/
theorem v8_at (b : Fin 4) (s : Fin 2048) (d : Fin 2048) :
    val_main_v8 (F := Ideal) x0 x2 (ix3 b s d)
      = Spec.gate (fun k => x0 (ix3 b s k)) (fun d k => x2 (ix2 d k)) d := by
  rw [val_main_v8_apply, val_main_v7_apply, val_main_v6_apply, val_main_cst_0_apply, val_main_v5_apply,
    val_main_v4_apply, val_main_cst_apply, val_main_v3_apply, val_main_v2_apply, v1_at]
  show _ = Ideal.logistic (∑ k : Fin 2048, x0 (ix3 b s k) * x2 (ix2 d k)) * x0 (ix3 b s d)
  rw [← Spec.logistic_expanded]
  rfl

/-- The coefficient array at `(b, s, l, k)`: the gated row against row `(l, k)` of the ladder weight. -/
theorem v9_at (b : Fin 4) (s : Fin 2048) (l : Fin 3) (k : Fin 6) :
    val_main_v9 (F := Ideal) x0 x2 x3 (ix4 b s l k) = coeffAt x0 x2 x3 b s l k := by
  rw [val_main_v9_apply]
  unfold coeffAt Spec.coeff
  refine Finset.sum_congr rfl fun d _ => ?_
  have el : lidx_main_v9 (ix4 b s l k) d = ix3 b s d :=
    funext fun a => Fin.ext (by match a with | ⟨0, _⟩ => rfl | ⟨1, _⟩ => rfl | ⟨2, _⟩ => rfl)
  have er : ridx_main_v9 (ix4 b s l k) d = ix3 l k d :=
    funext fun a => Fin.ext (by match a with | ⟨0, _⟩ => rfl | ⟨1, _⟩ => rfl | ⟨2, _⟩ => rfl)
  rw [el, er, v8_at]

/-! ## The six coefficients of a ladder, read out of the coefficient array -/

/-- The row-major position of `(b, s, l)` in a 4 × 2048 × 3 array splits back into its coordinates. -/
theorem unflat (b : Fin 4) (s : Fin 2048) (l : Fin 3) :
    ((b.val * 2048 + s.val) * 3 + l.val) / 6144 = b.val ∧
    ((b.val * 2048 + s.val) * 3 + l.val) / 3 % 2048 = s.val ∧
    ((b.val * 2048 + s.val) * 3 + l.val) / 1 % 3 = l.val := by
  have hb := b.isLt
  have hs := s.isLt
  have hl := l.isLt
  omega

/-- The leading coefficient: the first slice of the coefficient array, its unit axis dropped. -/
theorem v11_at (b : Fin 4) (s : Fin 2048) (l : Fin 3) :
    val_main_v11 (F := Ideal) x0 x2 x3 (ix3 b s l) = val_main_v9 (F := Ideal) x0 x2 x3 (ix4 b s l (0 : Fin 6)) := by
  rw [val_main_v11_apply, val_main_v10_apply]
  refine congrArg (val_main_v9 (F := Ideal) x0 x2 x3) (funext fun a => Fin.ext ?_)
  match a with
  | ⟨0, _⟩ => exact (unflat b s l).1
  | ⟨1, _⟩ => exact (unflat b s l).2.1
  | ⟨2, _⟩ => exact (unflat b s l).2.2
  | ⟨3, _⟩ => rfl

/-- Coefficient 5: entry 4 of the tail slice, its unit axis dropped. -/
theorem v24_at (b : Fin 4) (s : Fin 2048) (l : Fin 3) :
    val_main_v24 (F := Ideal) x0 x2 x3 (ix3 b s l) = val_main_v9 (F := Ideal) x0 x2 x3 (ix4 b s l (5 : Fin 6)) := by
  rw [val_main_v24_apply, val_main_v23_apply, val_main_v12_apply]
  refine congrArg (val_main_v9 (F := Ideal) x0 x2 x3) (funext fun a => Fin.ext ?_)
  match a with
  | ⟨0, _⟩ => exact (unflat b s l).1
  | ⟨1, _⟩ => exact (unflat b s l).2.1
  | ⟨2, _⟩ => exact (unflat b s l).2.2
  | ⟨3, _⟩ => rfl

/-- Coefficient 4: entry 3 of the tail slice, its unit axis dropped. -/
theorem v36_at (b : Fin 4) (s : Fin 2048) (l : Fin 3) :
    val_main_v36 (F := Ideal) x0 x2 x3 (ix3 b s l) = val_main_v9 (F := Ideal) x0 x2 x3 (ix4 b s l (4 : Fin 6)) := by
  rw [val_main_v36_apply, val_main_v35_apply, val_main_v12_apply]
  refine congrArg (val_main_v9 (F := Ideal) x0 x2 x3) (funext fun a => Fin.ext ?_)
  match a with
  | ⟨0, _⟩ => exact (unflat b s l).1
  | ⟨1, _⟩ => exact (unflat b s l).2.1
  | ⟨2, _⟩ => exact (unflat b s l).2.2
  | ⟨3, _⟩ => rfl

/-- Coefficient 3: entry 2 of the tail slice, its unit axis dropped. -/
theorem v48_at (b : Fin 4) (s : Fin 2048) (l : Fin 3) :
    val_main_v48 (F := Ideal) x0 x2 x3 (ix3 b s l) = val_main_v9 (F := Ideal) x0 x2 x3 (ix4 b s l (3 : Fin 6)) := by
  rw [val_main_v48_apply, val_main_v47_apply, val_main_v12_apply]
  refine congrArg (val_main_v9 (F := Ideal) x0 x2 x3) (funext fun a => Fin.ext ?_)
  match a with
  | ⟨0, _⟩ => exact (unflat b s l).1
  | ⟨1, _⟩ => exact (unflat b s l).2.1
  | ⟨2, _⟩ => exact (unflat b s l).2.2
  | ⟨3, _⟩ => rfl

/-- Coefficient 2: entry 1 of the tail slice, its unit axis dropped. -/
theorem v60_at (b : Fin 4) (s : Fin 2048) (l : Fin 3) :
    val_main_v60 (F := Ideal) x0 x2 x3 (ix3 b s l) = val_main_v9 (F := Ideal) x0 x2 x3 (ix4 b s l (2 : Fin 6)) := by
  rw [val_main_v60_apply, val_main_v59_apply, val_main_v12_apply]
  refine congrArg (val_main_v9 (F := Ideal) x0 x2 x3) (funext fun a => Fin.ext ?_)
  match a with
  | ⟨0, _⟩ => exact (unflat b s l).1
  | ⟨1, _⟩ => exact (unflat b s l).2.1
  | ⟨2, _⟩ => exact (unflat b s l).2.2
  | ⟨3, _⟩ => rfl

/-- Coefficient 1: entry 0 of the tail slice, its unit axis dropped. -/
theorem v72_at (b : Fin 4) (s : Fin 2048) (l : Fin 3) :
    val_main_v72 (F := Ideal) x0 x2 x3 (ix3 b s l) = val_main_v9 (F := Ideal) x0 x2 x3 (ix4 b s l (1 : Fin 6)) := by
  rw [val_main_v72_apply, val_main_v71_apply, val_main_v12_apply]
  refine congrArg (val_main_v9 (F := Ideal) x0 x2 x3) (funext fun a => Fin.ext ?_)
  match a with
  | ⟨0, _⟩ => exact (unflat b s l).1
  | ⟨1, _⟩ => exact (unflat b s l).2.1
  | ⟨2, _⟩ => exact (unflat b s l).2.2
  | ⟨3, _⟩ => rfl

/-! ## The levels of the continued fraction, bottom up -/

/-- The lowest level: coefficient 5 over the guarded `1 + 0`. -/
theorem level1 (i : S4x2048x3.Idx) :
    val_main_v25 (F := Ideal) x0 x2 x3 i = Spec.level (val_main_v24 (F := Ideal) x0 x2 x3 i) Spec.zeroP := by
  simp only [val_main_v25_apply, val_main_v22_apply, val_main_v18_apply, val_main_v16_apply, val_main_v15_apply,
    val_main_v14_apply, val_main_cst_2_apply, val_main_v13_apply, val_main_cst_1_apply, val_main_v17_apply,
    val_main_cst_3_apply, val_main_call1_v0_apply, val_main_v21_apply, val_main_v20_apply, val_main_v19_apply,
    val_main_cst_4_apply, val_main_call0_v0_apply, val_main_cst_5_apply, val_main_call0_v1_apply, val_main_cst_6_apply]
  rfl

/-- The second level from the bottom: coefficient 4 over the guarded `1 +` the level below. -/
theorem level2 (i : S4x2048x3.Idx) :
    val_main_v37 (F := Ideal) x0 x2 x3 i = Spec.level (val_main_v36 (F := Ideal) x0 x2 x3 i) (val_main_v25 (F := Ideal) x0 x2 x3 i) := by
  simp only [val_main_v37_apply, val_main_v34_apply, val_main_v30_apply, val_main_v28_apply, val_main_v27_apply,
    val_main_v26_apply, val_main_cst_7_apply, val_main_v29_apply, val_main_cst_8_apply, val_main_call3_v0_apply,
    val_main_v33_apply, val_main_v32_apply, val_main_v31_apply, val_main_cst_9_apply, val_main_call2_v0_apply,
    val_main_cst_10_apply, val_main_call2_v1_apply, val_main_cst_11_apply]
  rfl

/-- The third level from the bottom: coefficient 3 over the guarded `1 +` the level below. -/
theorem level3 (i : S4x2048x3.Idx) :
    val_main_v49 (F := Ideal) x0 x2 x3 i = Spec.level (val_main_v48 (F := Ideal) x0 x2 x3 i) (val_main_v37 (F := Ideal) x0 x2 x3 i) := by
  simp only [val_main_v49_apply, val_main_v46_apply, val_main_v42_apply, val_main_v40_apply, val_main_v39_apply,
    val_main_v38_apply, val_main_cst_12_apply, val_main_v41_apply, val_main_cst_13_apply, val_main_call5_v0_apply,
    val_main_v45_apply, val_main_v44_apply, val_main_v43_apply, val_main_cst_14_apply, val_main_call4_v0_apply,
    val_main_cst_15_apply, val_main_call4_v1_apply, val_main_cst_16_apply]
  rfl

/-- The fourth level from the bottom: coefficient 2 over the guarded `1 +` the level below. -/
theorem level4 (i : S4x2048x3.Idx) :
    val_main_v61 (F := Ideal) x0 x2 x3 i = Spec.level (val_main_v60 (F := Ideal) x0 x2 x3 i) (val_main_v49 (F := Ideal) x0 x2 x3 i) := by
  simp only [val_main_v61_apply, val_main_v58_apply, val_main_v54_apply, val_main_v52_apply, val_main_v51_apply,
    val_main_v50_apply, val_main_cst_17_apply, val_main_v53_apply, val_main_cst_18_apply, val_main_call7_v0_apply,
    val_main_v57_apply, val_main_v56_apply, val_main_v55_apply, val_main_cst_19_apply, val_main_call6_v0_apply,
    val_main_cst_20_apply, val_main_call6_v1_apply, val_main_cst_21_apply]
  rfl

/-- The top level: coefficient 1 over the guarded `1 +` the level below. -/
theorem level5 (i : S4x2048x3.Idx) :
    val_main_v73 (F := Ideal) x0 x2 x3 i = Spec.level (val_main_v72 (F := Ideal) x0 x2 x3 i) (val_main_v61 (F := Ideal) x0 x2 x3 i) := by
  simp only [val_main_v73_apply, val_main_v70_apply, val_main_v66_apply, val_main_v64_apply, val_main_v63_apply,
    val_main_v62_apply, val_main_cst_22_apply, val_main_v65_apply, val_main_cst_23_apply, val_main_call9_v0_apply,
    val_main_v69_apply, val_main_v68_apply, val_main_v67_apply, val_main_cst_24_apply, val_main_call8_v0_apply,
    val_main_cst_25_apply, val_main_call8_v1_apply, val_main_cst_26_apply]
  rfl

/-- A ladder's value at `(b, s, l)`: the leading coefficient plus the five levels. -/
theorem v74_at (b : Fin 4) (s : Fin 2048) (l : Fin 3) :
    val_main_v74 (F := Ideal) x0 x2 x3 (ix3 b s l) = Spec.ladder (coeffAt x0 x2 x3 b s l) := by
  rw [val_main_v74_apply, level5, level4, level3, level2, level1,
    v11_at, v24_at, v36_at, v48_at, v60_at, v72_at]
  simp only [v9_at]
  rfl

/-- The second contraction at `(b, s, o)`: the three ladder values of row `(b, s)` against row `o` of the last weight. -/
theorem v75_at (b : Fin 4) (s : Fin 2048) (o : Fin 2048) :
    val_main_v75 (F := Ideal) x0 x2 x3 x4 (ix3 b s o)
      = ∑ l : Fin 3, Spec.ladder (coeffAt x0 x2 x3 b s l) * x4 (ix2 o l) := by
  rw [val_main_v75_apply]
  refine Finset.sum_congr rfl fun l _ => ?_
  have el : lidx_main_v75 (ix3 b s o) l = ix3 b s l :=
    funext fun a => Fin.ext (by match a with | ⟨0, _⟩ => rfl | ⟨1, _⟩ => rfl | ⟨2, _⟩ => rfl)
  have er : ridx_main_v75 (ix3 b s o) l = ix2 o l :=
    funext fun a => Fin.ext (by match a with | ⟨0, _⟩ => rfl | ⟨1, _⟩ => rfl)
  rw [el, er, v74_at]

end stages

/-- The reference's last stage is the common function, index by index. -/
theorem ref_whole (x0 : (⟨S4x2048x2048, .f32⟩ : BufTy).Contents (Elt Ideal)) (x1 x2 : (⟨S2048x2048, .f32⟩ : BufTy).Contents (Elt Ideal))
    (x3 : (⟨S3x6x2048, .f32⟩ : BufTy).Contents (Elt Ideal)) (x4 : (⟨S2048x3, .f32⟩ : BufTy).Contents (Elt Ideal)) :
    Cert.ReferenceIdeal.ReadP.val_main_v76 (F := Ideal) x0 x1 x2 x3 x4 = Cert.Spec.whole x0 x1 x2 x3 x4 := by
  funext i
  obtain ⟨b, s, o, rfl⟩ : ∃ (b : Fin 4) (s : Fin 2048) (o : Fin 2048), i = ix3 b s o :=
    ⟨i 0, i 1, i 2, ValueIdx.eq_ix3 i⟩
  rw [val_main_v76_apply, v0_at, v75_at]
  rfl

end Cert.RefSide

end
-- ==== Proof.lean ====
/-
  The certificate: the kernel (a continued-fraction feed-forward block: a linear projection plus three gated
  continued-fraction ladders projected back to the feature axis) against its jnp reference, over the extended reals.

  Both programs compute, for every row of the input, `Spec.out` (Proof/Spec.lean): the kernel 256 rows at a grid
  point, with block products on bf16 operands (format changes are the identity at the exact values) and the
  logistic function as one operation; the reference on the whole arrays, with the logistic function expanded into
  negate, exponential, add and divide and the ladder sum as one contraction over the three ladders. Neither
  difference is visible at the exact values: sums over the same index set are equal whatever their grouping, and no
  law beyond associativity and commutativity of + joins the two sides, so the finiteness precondition is never opened.

  The frames of the two kernel programs are the generated ones; the reference's frame is its run with the result
  dropped; the idealization rewrote nothing, so `preserves` is trivial.
-/
import proofs.«107718_j68478958568093_1_alg».proof.Defs
import proofs.«107718_j68478958568093_1_alg».proof.Proof.Gen.Kernel
import proofs.«107718_j68478958568093_1_alg».proof.Proof.Gen.Kernel.Skeleton
import proofs.«107718_j68478958568093_1_alg».proof.Proof.Gen.Kernel.Launch
import proofs.«107718_j68478958568093_1_alg».proof.Proof.Gen.Kernel.Points
import proofs.«107718_j68478958568093_1_alg».proof.Proof.Gen.Kernel.Frame
import proofs.«107718_j68478958568093_1_alg».proof.Proof.Gen.KernelIdeal
import proofs.«107718_j68478958568093_1_alg».proof.Proof.Gen.KernelIdeal.Skeleton
import proofs.«107718_j68478958568093_1_alg».proof.Proof.Gen.KernelIdeal.Launch
import proofs.«107718_j68478958568093_1_alg».proof.Proof.Gen.KernelIdeal.Points
import proofs.«107718_j68478958568093_1_alg».proof.Proof.Gen.KernelIdeal.Frame
import proofs.«107718_j68478958568093_1_alg».proof.Proof.Gen.ReferenceIdeal
import proofs.«107718_j68478958568093_1_alg».proof.Proof.Gen.Pre_finite_inputs
import proofs.«107718_j68478958568093_1_alg».proof.Proof.Spec
import proofs.«107718_j68478958568093_1_alg».proof.Proof.KArray
import proofs.«107718_j68478958568093_1_alg».proof.Proof.RefRun
import proofs.«107718_j68478958568093_1_alg».proof.Proof.RefRead
import proofs.«107718_j68478958568093_1_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the five arguments both programs end with `Spec.whole` of them. -/
theorem algebraic : Cert.algebraic_KernelIdeal_ReferenceIdeal := by
  intro m ρ m' ρ' _ hagree
  refine ⟨fun c => Cert.Spec.whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v76_eq, Cert.RefSide.ref_whole, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
